-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩
abbrev S1x800000 : Shape := ⟨2, ![1, 800000]⟩
abbrev S800000 : Shape := ⟨1, ![800000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_v28 : IVec S1x800000 32 := (extractStridedSlice S1x800000 ![0, 0] · slices_S2x800000_S1x800000_0_0) main_arg1
  let main_v29 : IVec S800000 32 := shapeCast S800000 main_v28 shapeCasts_S1x800000_S800000
  let main_c_9 : IVec S_ 32 := constantI S_ 32 50000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : FVec F S50000x256 .f32) (main_arg1 : IVec S2x800000 32) (main_arg2 : FVec F S256x256 .f32) (main_arg3 : FVec F S256 .f32) (main_arg4 : FVec F S256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S1 : Shape := ⟨1, ![1]⟩
abbrev S1x1 : Shape := ⟨2, ![1, 1]⟩
abbrev S850000x256 : Shape := ⟨2, ![850000, 256]⟩
abbrev S1x256 : Shape := ⟨2, ![1, 256]⟩

abbrev nBuf : Space → Nat
  | .hbm => 87
  | .vmem => 19
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x256, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S1, .i32⟩
  | .hbm, ⟨55, _⟩ => ⟨S_, .i32⟩
  | .hbm, ⟨56, _⟩ => ⟨S850000x1, .i32⟩
  | .hbm, ⟨57, _⟩ => ⟨S850000x1, .i1⟩
  | .hbm, ⟨58, _⟩ => ⟨S1x1, .i32⟩
  | .hbm, ⟨59, _⟩ => ⟨S850000x1, .i32⟩
  | .hbm, ⟨60, _⟩ => ⟨S850000x1, .i1⟩
  | .hbm, ⟨61, _⟩ => ⟨S850000x1, .i1⟩
  | .hbm, ⟨62, _⟩ => ⟨S_, .i1⟩
  | .hbm, ⟨63, _⟩ => ⟨S850000, .i1⟩
  | .hbm, ⟨64, _⟩ => ⟨S850000x256, .f32⟩
  | .hbm, ⟨65, _⟩ => ⟨S850000x256, .i1⟩
  | .hbm, ⟨66, _⟩ => ⟨S_, .f32⟩
  | .hbm, ⟨67, _⟩ => ⟨S850000x256, .f32⟩
  | .hbm, ⟨68, _⟩ => ⟨S850000x256, .f32⟩
  | .hbm, ⟨69, _⟩ => ⟨S850000x1, .f32⟩
  | .hbm, ⟨70, _⟩ => ⟨S850000x256, .f32⟩
  | .hbm, ⟨71, _⟩ => ⟨S850000x256, .f32⟩
  | .hbm, ⟨72, _⟩ => ⟨S_, .f32⟩
  | .hbm, ⟨73, _⟩ => ⟨S50000x256, .f32⟩
  | .hbm, ⟨74, _⟩ => ⟨S850000x1, .i32⟩
  | .hbm, ⟨75, _⟩ => ⟨S50000x256, .f32⟩
  | .hbm, ⟨76, _⟩ => ⟨S256, .f32⟩
  | .hbm, ⟨77, _⟩ => ⟨S256, .f32⟩
  | .hbm, ⟨78, _⟩ => ⟨S_, .f32⟩
  | .hbm, ⟨79, _⟩ => ⟨S256, .f32⟩
  | .hbm, ⟨80, _⟩ => ⟨S256, .f32⟩
  | .hbm, ⟨81, _⟩ => ⟨S_, .f32⟩
  | .hbm, ⟨82, _⟩ => ⟨S256, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S5000x256, .f32⟩
  | .local _ .vmem, ⟨11, _⟩ => ⟨S5000x256, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S5000x256, .f32⟩
  | .local _ .vmem, ⟨18, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_6 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39_0 : Ref sig .tc := ⟨.hbm, 76, rfl⟩
abbrev main_v39_1 : Ref sig .tc := ⟨.hbm, 77, rfl⟩
abbrev main_cst_7 : Ref sig .tc := ⟨.hbm, 78, rfl⟩
abbrev main_v40 : Ref sig .tc := ⟨.hbm, 79, rfl⟩
abbrev main_v41 : Ref sig .tc := ⟨.hbm, 80, rfl⟩
abbrev main_cst_8 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x256_0 : S850000.BroadcastsInDim S850000x256 (![0] : Fin 1 → Fin S850000x256.rank)
  bcast_S_S850000x256 : S_.BroadcastsInDim S850000x256 (![] : Fin 0 → Fin S850000x256.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  inb_S256_S256_0 : ∀ a, (![0] : Fin 1 → Nat) a + S256.size a ≤ S256.size a
  h_S256 : 0 < S256.numel
  shapeCasts_S5000x256_S5000x256 : S5000x256.ShapeCasts S5000x256
  shapeCasts_S256_S1x256 : S256.ShapeCasts S1x256
  broadcasts_S1x256_S5000x256 : S1x256.Broadcasts S5000x256
  shapeCasts_S256_S256 : S256.ShapeCasts S256
  reduces_S5000x256_S256 : S5000x256.Reduces [0] S256
  bcast_S_S256 : S_.BroadcastsInDim S256 (![] : Fin 0 → Fin S256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256.size a ≤ S256.size a
  hwx2_1 : ∀ i : grid2.Coords, EltTy.bits .f32 = 32 ∨ (Rect.block (s := S256) S256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x256.size a ≤ S50000x256.size a
  hwx2_6 : ∀ i : grid2.Coords, EltTy.bits .f32 = 32 ∨ (Rect.block (s := S50000x256) S5000x256.size (cc2_transform_6 i) (hinb2_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39_0) S256.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39_1) S256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 98
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x256, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x256, .f32⟩
  | .hbm, ⟨55, _⟩ => ⟨S850000x1, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S_, .f32⟩
  | .hbm, ⟨75, _⟩ => ⟨S256, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S_, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S1x256, .f32⟩
  | .hbm, ⟨87, _⟩ => ⟨S50000x256, .f32⟩
  | .hbm, ⟨88, _⟩ => ⟨S50000x256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | .hbm, ⟨95, _⟩ => ⟨S_, .f32⟩
  | .hbm, ⟨96, _⟩ => ⟨S50000x256, .f32⟩
  | .hbm, ⟨97, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.TakeGather.lean ====
/-
  The kernel's row gather with a bounds mask, against the plain row gather.

  The kernel reads the rows `h[src]` through a gather that (i) counts a negative id from the end, (ii) tests the
  wrapped id against `0 ≤ id ≤ 49999` and (iii) returns the gathered row where the test holds and a fill word where
  it does not. The reference does (i) and gathers, nothing else. Where every id lies in `[0, 50000)` the wrap is the
  identity, the test holds at every position, and the two gathers are one array. The ids themselves are the first
  row of the edge array followed by `0, 1, …, 49999` (one self loop per node), so they are in range as soon as the
  edge array's first row is.
-/
import proofs.«413745_j1589137900159_2_alg».proof.Proof.Gen.KernelIdeal
import Idealize.ShloMosaic.PureOps.Ideal
import Idealize.ShloMosaic.Lib.ValueIdx
import Idealize.ShloMosaic.Lib.StableHlo.Predicate
import Idealize.ShloMosaic.Lib.Pipeline.Value
import Idealize.ShloMosaic.PureOps.Reduce

noncomputable section

namespace Cert.KernelIdeal.Val

open Cert.KernelIdeal Cert.KernelIdeal.Gen
open Idealize.ShloMosaic Idealize.ShloMosaic.ValueIdx

variable {F : FTy → Type} [FloatOps F]

/-- The source ids: row 0 of the edge array, then one self loop per node. -/
def srcIds (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- An id counted from the end when it is negative. -/
def wrapIds (ids : IVec S850000 32) : IVec S850000 32 :=
  select (cmpi .slt ids (broadcastInDim S850000 ![] bcast_S_S850000 (constantI S_ 32 0#32)))
    (addi ids (broadcastInDim S850000 ![] bcast_S_S850000 (constantI S_ 32 50000#32))) ids

/-- The wrapped ids as a column of start indices. -/
def idCol (ids : IVec S850000 32) : IVec S850000x1 32 :=
  broadcastInDim S850000x1 ![0] bcast_S850000_S850000x1_0 (wrapIds ids)

/-- Position by position: does the wrapped id lie in `[0, 49999]`? -/
def inRange (ids : IVec S850000 32) : IVec S850000 1 :=
  (fun x v => Host.reduce IntOp.andi x v reducesTo_S850000x1_S850000_d1 h_S_)
    (andi (cmpi .sge (idCol ids) (broadcastInDim S850000x1 ![] bcast_S_S850000x1 (constantI S_ 32 0#32)))
      (cmpi .sle (idCol ids) (broadcastInDim S850000x1 ![0, 1] bcast_S1x1_S850000x1_0_1 (broadcastInDim S1x1 ![1] bcast_S1_S1x1_1 (constantI S1 32 49999#32)))))
    (constantI S_ 1 1#1)

/-- The plain row gather: row `e` of the result is row `ids e` of `h`. -/
def gatherRows (h : FVec F S50000x256 .f32) (ids : IVec S850000 32) : FVec F S850000x256 .f32 :=
  Host.gather gather_S50000x256_S850000x1_S850000x256_1_0_n_n_0_1_1256 h (idCol ids)

/-- The kernel's row gather: the gathered row where the id is in range, the fill word elsewhere. -/
def takeRows (h : FVec F S50000x256 .f32) (ids : IVec S850000 32) : FVec F S850000x256 .f32 :=
  select (broadcastInDim S850000x256 ![0] bcast_S850000_S850000x256_0 (inRange ids)) (gatherRows h ids)
    (broadcastInDim S850000x256 ![] bcast_S_S850000x256 (constant S_ .f32 0x7FC00000#32))

/-- The aggregation of gathered rows: each row scaled by its edge's weight, the rows summed by destination id. -/
def aggregate (rows : FVec F S850000x256 .f32) (dst : IVec S850000 32) (norm : FVec F S850000 .f32) : FVec F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 dst)
    (mulf rows (broadcastInDim S850000x256 ![0, 1] bcast_S850000x1_S850000x256_0_1 (broadcastInDim S850000x1 ![0] bcast_S850000_S850000x1_0 norm)))

/-- Below 800000 the source ids read row 0 of the edge array at the same position. -/
theorem srcIds_apply_lt (ei : IVec S2x800000 32) (p : Fin 850000) (hp : p.val < 800000) :
    srcIds ei (ix1 p) = ei (ix2 (0 : Fin 2) (⟨p.val, hp⟩ : Fin 800000)) := by
  unfold srcIds
  refine (concatenate_pair_apply_left (t := S850000) (s₁ := S800000) (s₂ := S50000) (0 : Fin 1) _ _
    concatenates_S800000_S50000_S850000_d0 (ix1 p) rfl (ix1 (⟨p.val, hp⟩ : Fin 800000)) (by
      intro b
      match b with
      | ⟨0, _⟩ => rfl)).trans ?_
  refine (shapeCast_apply _ shapeCasts_S1x800000_S800000 (ix1 (⟨p.val, hp⟩ : Fin 800000))
    (ix2 (0 : Fin 1) (⟨p.val, hp⟩ : Fin 800000)) (by
      rw [Shape.rowMajor_val_two, Shape.rowMajor_val_one]; show 0 * 800000 + p.val = p.val; omega)).trans ?_
  exact extractStridedSlice_apply _ ei slices_S2x800000_S1x800000_0_0 (ix2 (0 : Fin 1) (⟨p.val, hp⟩ : Fin 800000))
    (ix2 (0 : Fin 2) (⟨p.val, hp⟩ : Fin 800000)) (by
      intro a
      match a with
      | ⟨0, _⟩ => rfl
      | ⟨1, _⟩ => show p.val = 0 + p.val; omega)

/-- From 800000 on the source ids count the self loops: position `p` holds the word of `p − 800000`. -/
theorem srcIds_apply_ge (ei : IVec S2x800000 32) (p : Fin 850000) (hp : 800000 ≤ p.val) :
    srcIds ei (ix1 p) = BitVec.ofNat 32 (p.val - 800000) := by
  have hq : p.val - 800000 < 50000 := by have := p.isLt; omega
  unfold srcIds
  refine (concatenate_pair_apply_right (t := S850000) (s₁ := S800000) (s₂ := S50000) (0 : Fin 1) _ _
    concatenates_S800000_S50000_S850000_d0 (ix1 p) rfl rfl (ix1 (⟨p.val - 800000, hq⟩ : Fin 50000)) (by
      intro b hb
      exact absurd (Subsingleton.elim (α := Fin 1) _ _) hb) (by
      show p.val - 800000 + 800000 = p.val; omega)).trans ?_
  rfl

/-- The source ids are in range when the edge array's first row is: the appended self loops are `0 … 49999`. -/
theorem srcIds_in_range (ei : IVec S2x800000 32)
    (hei : ∀ e : Fin 800000, 0 ≤ (ei (ix2 (0 : Fin 2) e)).toInt ∧ (ei (ix2 (0 : Fin 2) e)).toInt < 50000) (p : Fin 850000) :
    0 ≤ (srcIds ei (ix1 p)).toInt ∧ (srcIds ei (ix1 p)).toInt < 50000 := by
  by_cases hp : p.val < 800000
  · rw [srcIds_apply_lt ei p hp]
    exact hei ⟨p.val, hp⟩
  · have hq : p.val - 800000 < 50000 := by have := p.isLt; omega
    rw [srcIds_apply_ge ei p (by omega),
      StableHlo.Predicate.toInt_ofNat_small (p.val - 800000) (by omega)]
    omega

/-- A word whose signed reading lies in `[0, 50000)` has that number as its unsigned reading. -/
theorem toNat_lt_of_toInt_range {x : BitVec 32} (h0 : 0 ≤ x.toInt) (h1 : x.toInt < 50000) : x.toNat < 50000 := by
  have hx := x.isLt
  have hc := BitVec.toInt_eq_toNat_cond x
  by_cases h : 2 * x.toNat < 2 ^ 32
  · rw [if_pos h] at hc; omega
  · rw [if_neg h] at hc; omega

/-- A non-negative id is not counted from the end: the wrap leaves it. -/
theorem wrapIds_apply (ids : IVec S850000 32) (p : Fin 850000) (h0 : 0 ≤ (ids (ix1 p)).toInt) :
    wrapIds ids (ix1 p) = ids (ix1 p) := by
  have hz : (0#32 : BitVec 32).toInt = 0 := by decide
  have hc : IntOp.cmpi .slt (ids (ix1 p)) 0#32 = 0#1 := by
    show BitVec.ofBool (decide ((ids (ix1 p)).toInt < (0#32 : BitVec 32).toInt)) = 0#1
    rw [decide_eq_false (by omega)]
    rfl
  show Scalar.select (IntOp.cmpi .slt (ids (ix1 p)) 0#32) (IntOp.addi (ids (ix1 p)) 50000#32) (ids (ix1 p)) = ids (ix1 p)
  rw [hc]
  exact select_zero _ _

/-- A left fold by `and` from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    have h11 : IntOp.andi (1#1 : BitVec 1) 1#1 = 1#1 := by decide
    rw [List.foldl_cons, hx a, h11]
    exact foldl_andi_one x hx l

/-- The column of start indices reads, at row `r`, the id at `r` when that id is non-negative. -/
theorem idCol_apply (ids : IVec S850000 32) (i : S850000x1.Idx) (h0 : 0 ≤ (ids (ix1 (i 0))).toInt) :
    idCol ids i = ids (ix1 (i 0)) := by
  unfold idCol broadcastInDim
  refine Eq.trans (congrArg (wrapIds ids) (funext fun a => ?_)) (wrapIds_apply ids (i 0) h0)
  match a with
  | ⟨0, _⟩ =>
    apply Fin.ext
    split
    · next h1 => change (850000 : Nat) = 1 at h1; omega
    · rfl

/-- A word below 50000 passes both comparisons of the range test. -/
theorem rangeTest_one (x : BitVec 32) (hn : x.toNat < 50000) :
    IntOp.andi (IntOp.cmpi .sge x 0#32) (IntOp.cmpi .sle x 49999#32) = 1#1 := by
  have h0 : (0#32 : BitVec 32).toNat = 0 := rfl
  have h9 : (49999#32 : BitVec 32).toNat = 49999 := rfl
  have h1 : IntOp.cmpi .sge x 0#32 = 1#1 :=
    (StableHlo.Predicate.sge_iff_toNat (by omega) (by omega)).2 (by omega)
  have h2 : IntOp.cmpi .sle x 49999#32 = 1#1 :=
    (StableHlo.Predicate.sle_iff_toNat (by omega) (by omega)).2 (by omega)
  rw [h1, h2]
  decide

/-- With every id in `[0, 50000)` the range test holds at every position. -/
theorem inRange_apply (ids : IVec S850000 32)
    (hids : ∀ p : Fin 850000, 0 ≤ (ids (ix1 p)).toInt ∧ (ids (ix1 p)).toInt < 50000) (q : S850000.Idx) :
    inRange ids q = 1#1 := by
  unfold inRange
  refine (Host.reduce_eq_foldl _ _ _ _ _ _).trans ?_
  refine foldl_andi_one _ (fun i => ?_) _
  have hx := hids (i 0)
  have hn : (ids (ix1 (i 0))).toNat < 50000 := toNat_lt_of_toInt_range hx.1 hx.2
  show IntOp.andi (IntOp.cmpi .sge (idCol ids i) 0#32) (IntOp.cmpi .sle (idCol ids i) 49999#32) = 1#1
  rw [idCol_apply ids i hx.1]
  exact rangeTest_one _ hn

/-- With every id in `[0, 50000)` the masked gather is the plain gather. -/
theorem takeRows_eq_gatherRows (h : FVec F S50000x256 .f32) (ids : IVec S850000 32)
    (hids : ∀ p : Fin 850000, 0 ≤ (ids (ix1 p)).toInt ∧ (ids (ix1 p)).toInt < 50000) :
    takeRows h ids = gatherRows h ids := by
  funext j
  have hm : broadcastInDim S850000x256 ![0] bcast_S850000_S850000x256_0 (inRange ids) j = 1#1 :=
    inRange_apply ids hids _
  unfold takeRows
  rw [select_apply, hm]
  exact select_one _ _

end Cert.KernelIdeal.Val

end
-- ==== Proof.HostEntry1.lean ====
/-
  What region 1 (the column sums) finds in memory. Between regions 0 and 1 the host gathers the rows `h[src]` of
  region 0's result through the masked gather, scales each by its edge weight and sums the rows by destination id:
  the aggregate. The ids and the weights are the ones computed before region 0 (that region does not touch them), and
  the bias is as launched.
-/
import proofs.«413745_j1589137900159_2_alg».proof.Proof.Gen.KernelIdeal.Frame
import proofs.«413745_j1589137900159_2_alg».proof.Proof.TakeGather
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A stretch of host operations leaves a buffer none of them writes as it found it. -/
local macro "keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- Contents carried to a typed reference's buffer and back are the contents. -/
theorem ofBuf_toBuf {Val : EltTy → Type} {T : BufTy} (x : StableHlo.TRef sig T) (v : T.Contents Val) :
    x.ofBuf (x.toBuf v) = v := by
  obtain ⟨r, h, h1, h2⟩ := x
  subst h
  rfl

set_option maxHeartbeats 2000000 in
/-- The gathered rows after the masked gather, over what region 0 left: each value written inside the gather is
    read back as written, and what is left is the gather's own operations on region 0's result and the source ids. -/
theorem rows_at_W5 (c : Dev nD) :
    W5 m ρ c (Proc.devRef .tc main_v32)
      = takeRows (W4 m ρ c (Proc.devRef .tc main_v31)) (W4 m ρ c (Proc.devRef .tc main_v3)) := by
  dsimp only [W5]
  after_results
  simp only [ofBuf_toBuf]
  simp only [TRef.ofBuf, TRef.toBuf, cast_eq]
  rfl

/-- The masked gather writes neither the destination ids nor the edge weights. -/
theorem dst_at_W5 (c : Dev nD) : W5 m ρ c (Proc.devRef .tc main_v6) = W4 m ρ c (Proc.devRef .tc main_v6) := by
  keeps hostOps1
theorem norm_at_W5 (c : Dev nD) : W5 m ρ c (Proc.devRef .tc main_v30) = W4 m ρ c (Proc.devRef .tc main_v30) := by
  keeps hostOps1

set_option maxHeartbeats 2000000 in
/-- The aggregate when region 1 is entered, over the gathered rows: scaled by the edge weights, summed by
    destination. -/
theorem agg_at_W6_rows (c : Dev nD) :
    W6 m ρ c (Proc.devRef .tc main_v38)
      = aggregate (W5 m ρ c (Proc.devRef .tc main_v32)) (W5 m ρ c (Proc.devRef .tc main_v6))
          (W5 m ρ c (Proc.devRef .tc main_v30)) := by
  dsimp only [W6]
  after_results
  rfl

/-- The aggregate when region 1 is entered, over what region 0 left: the masked gather of the rows of region 0's
    result, scaled by the edge weights and summed by destination. -/
theorem agg_at_W6 (c : Dev nD) :
    W6 m ρ c (Proc.devRef .tc main_v38)
      = aggregate (takeRows (W4 m ρ c (Proc.devRef .tc main_v31)) (W4 m ρ c (Proc.devRef .tc main_v3)))
          (W4 m ρ c (Proc.devRef .tc main_v6)) (W4 m ρ c (Proc.devRef .tc main_v30)) := by
  rw [agg_at_W6_rows, rows_at_W5, dst_at_W5, norm_at_W5]

/-- Region 0's output array after the region: what its ten write-backs leave. -/
theorem h_at_W4 (c : Dev nD) : W4 m ρ c (Proc.devRef .tc main_v31) = (dat0 (V3 m ρ) c).arrAt 2 cfg0.N := W4_arr m ρ c 2

/-- Region 0 leaves the source ids, the destination ids and the edge weights as it found them. -/
theorem src_at_W4 (c : Dev nD) : W4 m ρ c (Proc.devRef .tc main_v3) = W3 m ρ c (Proc.devRef .tc main_v3) :=
  W4_of_ne m ρ c main_v3 (by decide)
theorem dst_at_W4 (c : Dev nD) : W4 m ρ c (Proc.devRef .tc main_v6) = W3 m ρ c (Proc.devRef .tc main_v6) :=
  W4_of_ne m ρ c main_v6 (by decide)
theorem norm_at_W4 (c : Dev nD) : W4 m ρ c (Proc.devRef .tc main_v30) = W3 m ρ c (Proc.devRef .tc main_v30) :=
  W4_of_ne m ρ c main_v30 (by decide)

/-- The bias when region 1 is entered: as launched. -/
theorem b_at_W6 (c : Dev nD) : W6 m ρ c (Proc.devRef .tc main_arg3) = m ((c : Thread nD τ).loc main_arg3) :=
  calc W6 m ρ c (Proc.devRef .tc main_arg3)
    _ = W5 m ρ c (Proc.devRef .tc main_arg3) := by keeps hostOps1_1
    _ = W4 m ρ c (Proc.devRef .tc main_arg3) := by keeps hostOps1
    _ = W3 m ρ c (Proc.devRef .tc main_arg3) := W4_of_ne m ρ c main_arg3 (by decide)
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

end Cert.KernelIdeal.Val

end
-- ==== Proof.HostEntry2.lean ====
/-
  What region 2 (the normalisation) finds in memory. Between regions 1 and 2 the host divides the two column sums by
  the number of nodes and forms the variance from the raw moments, `Σv²/N − (Σv/N)·(Σv/N)`. The aggregate is the one
  region 1 read (neither that region nor these operations write it); the bias, the scale and the shift are as launched.
-/
import proofs.«413745_j1589137900159_2_alg».proof.Proof.Gen.KernelIdeal.Frame
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A stretch of host operations leaves a buffer none of them writes as it found it. -/
local macro "keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The two column sums after region 1: what its write-backs leave in its two output arrays. -/
theorem sum_at_W7 (c : Dev nD) : W7 m ρ c (Proc.devRef .tc main_v39_0) = (dat1 (V6 m ρ) c).arrAt 2 cfg1.N := W7_arr m ρ c 2
theorem sumsq_at_W7 (c : Dev nD) : W7 m ρ c (Proc.devRef .tc main_v39_1) = (dat1 (V6 m ρ) c).arrAt 3 cfg1.N := W7_arr m ρ c 3

/-- The mean when region 2 is entered: the column sum over the number of nodes. -/
theorem mean_at_W8 (c : Dev nD) :
    W8 m ρ c (Proc.devRef .tc main_v41)
      = Host.divf (W7 m ρ c (Proc.devRef .tc main_v39_0)) (broadcastInDim S256 ![] bcast_S_S256 (constant S_ .f32 0x47435000#32)) := by
  dsimp only [W8]
  after_results

/-- The variance when region 2 is entered: the mean square minus the squared mean. -/
theorem var_at_W8 (c : Dev nD) :
    W8 m ρ c (Proc.devRef .tc main_v45)
      = subf (Host.divf (W7 m ρ c (Proc.devRef .tc main_v39_1)) (broadcastInDim S256 ![] bcast_S_S256 (constant S_ .f32 0x47435000#32)))
          (mulf (Host.divf (W7 m ρ c (Proc.devRef .tc main_v39_0)) (broadcastInDim S256 ![] bcast_S_S256 (constant S_ .f32 0x47435000#32)))
            (Host.divf (W7 m ρ c (Proc.devRef .tc main_v39_0)) (broadcastInDim S256 ![] bcast_S_S256 (constant S_ .f32 0x47435000#32)))) := by
  dsimp only [W8]
  after_results

/-- The aggregate when region 2 is entered is the one region 1 was entered with. -/
theorem agg_at_W8 (c : Dev nD) : W8 m ρ c (Proc.devRef .tc main_v38) = W6 m ρ c (Proc.devRef .tc main_v38) :=
  calc W8 m ρ c (Proc.devRef .tc main_v38)
    _ = W7 m ρ c (Proc.devRef .tc main_v38) := by keeps hostOps2
    _ = W6 m ρ c (Proc.devRef .tc main_v38) := (W7_arr m ρ c 0).trans (((dat1 (V6 m ρ) c).arrAt_in 0 rfl _).trans (A_eq1 (V6 m ρ) c 0))

/-- The bias, the scale and the shift when region 2 is entered: as launched (region 2 reads them through input
    windows and hands them back, and they end as launched). -/
theorem b_at_W8 (c : Dev nD) : W8 m ρ c (Proc.devRef .tc main_arg3) = m ((c : Thread nD τ).loc main_arg3) :=
  ((W9_arr m ρ c 1).trans (((dat2 (V8 m ρ) c).arrAt_in 1 rfl _).trans (A_eq2 (V8 m ρ) c 1))).symm.trans (W9_main_arg3 m ρ c)
theorem g_at_W8 (c : Dev nD) : W8 m ρ c (Proc.devRef .tc main_arg4) = m ((c : Thread nD τ).loc main_arg4) :=
  ((W9_arr m ρ c 4).trans (((dat2 (V8 m ρ) c).arrAt_in 4 rfl _).trans (A_eq2 (V8 m ρ) c 4))).symm.trans (W9_main_arg4 m ρ c)
theorem β_at_W8 (c : Dev nD) : W8 m ρ c (Proc.devRef .tc main_arg5) = m ((c : Thread nD τ).loc main_arg5) :=
  ((W9_arr m ρ c 5).trans (((dat2 (V8 m ρ) c).arrAt_in 5 rfl _).trans (A_eq2 (V8 m ρ) c 5))).symm.trans (W9_main_arg5 m ρ c)

/-- The result buffer after region 2: what its ten write-backs leave in its output array. -/
theorem out_at_W9 (c : Dev nD) : W9 m ρ c (Proc.devRef .tc main_v46) = (dat2 (V8 m ρ) c).arrAt 6 cfg2.N := W9_arr m ρ c 6

end Cert.KernelIdeal.Val

end
-- ==== Proof.Spec.lean ====
/-
  The mathematics both programs compute after the graph aggregation, as plain functions on the extended reals.

  `A` is the aggregated message array (50000 nodes × 256 channels) and `b` the bias; `v = A + b`. Per channel `j` both
  programs take the mean `μ j = (Σ_r v r j) / N` over the N = 50000 nodes, a variance, and return
  `max (((v r j − μ j) · rsqrt (var j + ε)) · γ j + β j) 0`. They differ in ONE place: the kernel takes the variance from
  the raw moments, `(Σ_r (v r j)²) / N − μ j · μ j`, the reference from the centred squares, `(Σ_r (v r j − μ j)²) / N`.
  For real `v` the two are one number (expand the square under the sum); at an infinite entry they are not, so the
  identity is stated for arrays all of whose entries are real numbers.
-/
import Idealize.ShloMosaic.PureOps.Ideal
import Idealize.ShloMosaic.PureOps.Ideal.Laws
import Idealize.ShloMosaic.Lib.ValueIdx
import Mathlib.Data.EReal.Basic
import Mathlib.Data.EReal.Operations
import Mathlib.Algebra.BigOperators.Group.Finset.Basic
import Mathlib.Algebra.BigOperators.Ring.Finset
import Mathlib.Data.Fintype.Card
import Mathlib.Tactic.Ring
import Mathlib.Tactic.FieldSimp
import Mathlib.Tactic.NormNum

noncomputable section

namespace Cert.GcnBn

open Idealize.ShloMosaic Idealize.ShloMosaic.ValueIdx

/-- Node features: 50000 nodes by 256 channels. -/
abbrev SN : Shape := ⟨2, ![50000, 256]⟩
/-- One value per channel. -/
abbrev SD : Shape := ⟨1, ![256]⟩

/-- An extended real that is a real number (neither infinity). -/
def IsReal (v : EReal) : Prop := ∃ r : ℝ, v = (r : EReal)

/-- The number of nodes, as the f32 word 50000.0 that both programs divide by. -/
def nNodes : EReal := Ideal.ofBits .f32 0x47435000#32
/-- The variance offset ε, the f32 word both programs carry. -/
def eps : EReal := Ideal.ofBits .f32 0x3727C5AC#32

/-- The biased aggregate `v r j = A r j + b j`. -/
def biased (A : SN.Idx → EReal) (b : SD.Idx → EReal) (r : Fin 50000) (j : Fin 256) : EReal :=
  A (ix2 r j) + b (ix1 j)

/-- Channel `j`'s sum over the nodes. -/
def colSum (A : SN.Idx → EReal) (b : SD.Idx → EReal) (j : Fin 256) : EReal := ∑ k : Fin 50000, biased A b k j
/-- Channel `j`'s sum of squares over the nodes. -/
def colSumSq (A : SN.Idx → EReal) (b : SD.Idx → EReal) (j : Fin 256) : EReal :=
  ∑ k : Fin 50000, biased A b k j * biased A b k j

/-- The channel mean. -/
def mean (A : SN.Idx → EReal) (b : SD.Idx → EReal) (j : Fin 256) : EReal := Ideal.div (colSum A b j) nNodes
/-- The variance from the raw moments, `E[v²] − (E v)²`: the kernel's. -/
def varMoments (A : SN.Idx → EReal) (b : SD.Idx → EReal) (j : Fin 256) : EReal :=
  Ideal.div (colSumSq A b j) nNodes - mean A b j * mean A b j
/-- The variance from the centred squares, `E[(v − E v)²]`: the reference's. -/
def varCentered (A : SN.Idx → EReal) (b : SD.Idx → EReal) (j : Fin 256) : EReal :=
  Ideal.div (∑ k : Fin 50000, (biased A b k j - mean A b j) * (biased A b k j - mean A b j)) nNodes

/-- Normalise by a given mean and variance, scale by `γ`, shift by `β`, clamp below at zero. -/
def normRelu (A : SN.Idx → EReal) (b mu var g β : SD.Idx → EReal) (r : Fin 50000) (j : Fin 256) : EReal :=
  max ((biased A b r j - mu (ix1 j)) * Ideal.rsqrt (var (ix1 j) + eps) * g (ix1 j) + β (ix1 j)) 0

/-- The kernel's result at node `r`, channel `j`. -/
def kerOut (A : SN.Idx → EReal) (b g β : SD.Idx → EReal) (r : Fin 50000) (j : Fin 256) : EReal :=
  normRelu A b (fun i => mean A b (i 0)) (fun i => varMoments A b (i 0)) g β r j
/-- The reference's result at node `r`, channel `j`. -/
def refOut (A : SN.Idx → EReal) (b g β : SD.Idx → EReal) (r : Fin 50000) (j : Fin 256) : EReal :=
  normRelu A b (fun i => mean A b (i 0)) (fun i => varCentered A b (i 0)) g β r j

/-- The word `0x47435000` (sign 0, exponent 142, fraction 4411392) denotes `(2^23 + 4411392) · 2^(15 − 23) = 50000`. -/
theorem nNodes_eq : nNodes = ((50000 : ℝ) : EReal) := by
  unfold nNodes
  simp [Ideal.ofBits, Ideal.ieee, -EReal.coe_mul]; norm_num

/-- The inclusion of the reals in the extended reals carries a finite sum to the sum of the inclusions. -/
theorem coe_finsum {ι : Type} (s : Finset ι) (f : ι → ℝ) :
    ((∑ k ∈ s, f k : ℝ) : EReal) = ∑ k ∈ s, (f k : EReal) := by
  classical
  refine Finset.induction_on s (by simp) ?_
  intro a t ha ih
  rw [Finset.sum_insert ha, Finset.sum_insert ha, EReal.coe_add, ih]

/-- Over the reals, with `c = 1/n` and `μ = (Σ f)·c`: `(Σ f²)·c − μ² = (Σ (f − μ)²)·c`. Expand the square under the
    sum; the cross term is `2μ·Σ f = 2n·μ²` and the constant term sums to `n·μ²`. -/
theorem real_moments_eq_centered (n : ℕ) (hn : (n : ℝ) ≠ 0) (f : Fin n → ℝ) :
    (∑ k, f k * f k) * (1 / (n : ℝ)) - ((∑ k, f k) * (1 / (n : ℝ))) * ((∑ k, f k) * (1 / (n : ℝ)))
      = (∑ k, (f k - (∑ i, f i) * (1 / (n : ℝ))) * (f k - (∑ i, f i) * (1 / (n : ℝ)))) * (1 / (n : ℝ)) := by
  have key : ∀ S Q μ : ℝ, S = (n : ℝ) * μ →
      Q * (1 / (n : ℝ)) - μ * μ = (Q - 2 * μ * S + (n : ℝ) * (μ * μ)) * (1 / (n : ℝ)) := by
    intro S Q μ h
    rw [h]; field_simp; ring
  have expand : ∀ μ : ℝ, ∑ k, (f k - μ) * (f k - μ)
      = (∑ k, f k * f k) - 2 * μ * (∑ k, f k) + (n : ℝ) * (μ * μ) := by
    intro μ
    have sq : ∀ k, (f k - μ) * (f k - μ) = f k * f k - 2 * μ * f k + μ * μ := fun k => by ring
    simp only [sq]
    rw [Finset.sum_add_distrib, Finset.sum_sub_distrib, ← Finset.mul_sum, Finset.sum_const,
      Finset.card_univ, Fintype.card_fin, nsmul_eq_mul]
  rw [expand]
  exact key _ _ _ (by field_simp)

/-- For a real-valued aggregate and bias the two variances are one number. -/
theorem varMoments_eq_varCentered (A : SN.Idx → EReal) (b : SD.Idx → EReal)
    (hA : ∀ i, IsReal (A i)) (hb : ∀ i, IsReal (b i)) (j : Fin 256) :
    varMoments A b j = varCentered A b j := by
  have hv : ∀ k : Fin 50000, ∃ r : ℝ, biased A b k j = (r : EReal) := by
    intro k
    obtain ⟨x, hx⟩ := hA (ix2 k j)
    obtain ⟨y, hy⟩ := hb (ix1 j)
    exact ⟨x + y, by rw [biased, hx, hy, EReal.coe_add]⟩
  choose f hf using hv
  have h50 : (50000 : ℝ) ≠ 0 := by norm_num
  unfold varMoments varCentered mean colSum colSumSq
  rw [nNodes_eq]
  simp only [hf, Ideal.div_coe h50]
  simp only [← EReal.coe_mul, ← coe_finsum, ← EReal.coe_sub]
  rw [EReal.coe_eq_coe_iff]
  have h := real_moments_eq_centered 50000 (by norm_num) f
  simp only [Nat.cast_ofNat] at h
  exact h

/-- Hence the two results agree wherever the aggregate and the bias are real. -/
theorem kerOut_eq_refOut (A : SN.Idx → EReal) (b g β : SD.Idx → EReal)
    (hA : ∀ i, IsReal (A i)) (hb : ∀ i, IsReal (b i)) (r : Fin 50000) (j : Fin 256) :
    kerOut A b g β r j = refOut A b g β r j := by
  unfold kerOut refOut normRelu
  have h : (fun i : SD.Idx => varMoments A b (i 0)) = fun i => varCentered A b (i 0) :=
    funext fun i => varMoments_eq_varCentered A b hA hb (i 0)
  rw [h]

end Cert.GcnBn

end
-- ==== Proof.ColumnSums.lean ====
/-
  Region 1 of the kernel: per channel, the sum and the sum of squares of `v = A + b` over the 50000 nodes. The two
  256-wide outputs stay resident across the ten grid points: point 0 clears them and adds its block's column sums;
  every later point adds its block's column sums to what the point before left. After the last point channel `j` holds
  the sum over all ten blocks, i.e. over all 50000 rows.
-/
import proofs.«413745_j1589137900159_2_alg».proof.Proof.Gen.KernelIdeal.Frame
import proofs.«413745_j1589137900159_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Logic.Equiv.Fin.Basic
import Mathlib.Data.Fintype.BigOperators
import Mathlib.Algebra.BigOperators.Fin

set_option maxRecDepth 16384

noncomputable section

namespace Cert.KernelIdeal.Val

open Cert.KernelIdeal Cert.KernelIdeal.Gen Cert.GcnBn
open Idealize.ShloMosaic Idealize.ShloMosaic.TcCoe Idealize.ShloMosaic.ValueIdx Idealize.SL.Sem
open Idealize.ShloMosaic.Pipeline (Dat Cfg Window)

/- The TensorCore's buffer contents when the region is entered: the parameter the region's value is stated at. -/
variable (V : (c : Dev nD) → (b : Ref sig .tc) → Buf (Elt Ideal) ((c : Thread nD τ).loc b))

namespace ColumnSums

/-! ## What one grid point leaves in the two accumulators

At a point other than the first the body's one store into each accumulator holds the previous contents plus the block's
column sums (of squares). At the first point the store of zeros comes first and is what the following load reads back,
so the same expression stands with the zero vector as the previous contents. -/

section Pieces

variable {F : FTy → Type} [FloatOps F]

/-- The zero offset of a rank-1 access. -/
theorem off1_zero : (![0] : Fin 1 → Nat) = fun _ => 0 := funext fun a => by fin_cases a; rfl
/-- The zero offsets of a rank-2 access. -/
theorem off2_zero : (![0, 0] : Fin 2 → Nat) = fun _ => 0 := funext fun a => by fin_cases a <;> rfl

/-- A later point leaves, in the sum accumulator, its previous contents plus the block's column sums. -/
theorem later_sum (c : Dev nD) (i : grid1.Coords) (a1 : Memref sig .tc .vmem S5000x256 .f32) (h1 : a1.IsWhole)
    (a2 : Memref sig .tc .vmem S256 .f32) (h2 : a2.IsWhole) (a3 : Memref sig .tc .vmem S256 .f32) (h3 : a3.IsWhole)
    (a4 : Memref sig .tc .vmem S256 .f32) (h4 : a4.IsWhole) (hc : ¬cond1_0 i)
    (x0 : Vec F S5000x256 .f32) (x1 xo2 xo3 : Vec F S256 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero off1_zero]
  simp only [View.readAt_eq_ld, h1.read_unread, h2.read_unread, h3.read_unread, h4.read_unread,
    View.ld_unit_zero (S := S5000x256) off2_zero, View.ld_unit_zero (S := S256) off1_zero]

/-- A later point leaves, in the sum-of-squares accumulator, its previous contents plus the block's column sums of squares. -/
theorem later_sumsq (c : Dev nD) (i : grid1.Coords) (a1 : Memref sig .tc .vmem S5000x256 .f32) (h1 : a1.IsWhole)
    (a2 : Memref sig .tc .vmem S256 .f32) (h2 : a2.IsWhole) (a3 : Memref sig .tc .vmem S256 .f32) (h3 : a3.IsWhole)
    (a4 : Memref sig .tc .vmem S256 .f32) (h4 : a4.IsWhole) (hc : ¬cond1_0 i)
    (x0 : Vec F S5000x256 .f32) (x1 xo2 xo3 : Vec F S256 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero off1_zero]
  simp only [View.readAt_eq_ld, h1.read_unread, h2.read_unread, h3.read_unread, h4.read_unread,
    View.ld_unit_zero (S := S5000x256) off2_zero, View.ld_unit_zero (S := S256) off1_zero]

/-- The first point leaves, in the sum accumulator, the zero vector plus the block's column sums. -/
theorem first_sum (c : Dev nD) (i : grid1.Coords) (a1 : Memref sig .tc .vmem S5000x256 .f32) (h1 : a1.IsWhole)
    (a2 : Memref sig .tc .vmem S256 .f32) (h2 : a2.IsWhole) (a3 : Memref sig .tc .vmem S256 .f32) (h3 : a3.IsWhole)
    (a4 : Memref sig .tc .vmem S256 .f32) (h4 : a4.IsWhole) (hc : cond1_0 i)
    (x0 : Vec F S5000x256 .f32) (x1 : Vec F S256 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S256) off1_zero]
  simp only [View.readAt_eq_ld, h1.read_unread, h2.read_unread, View.readCov_unit_zero (S := S256) _ off1_zero,
    View.ld_unit_zero (S := S5000x256) off2_zero, View.ld_unit_zero (S := S256) off1_zero]

/-- The first point leaves, in the sum-of-squares accumulator, the zero vector plus the block's column sums of squares. -/
theorem first_sumsq (c : Dev nD) (i : grid1.Coords) (a1 : Memref sig .tc .vmem S5000x256 .f32) (h1 : a1.IsWhole)
    (a2 : Memref sig .tc .vmem S256 .f32) (h2 : a2.IsWhole) (a3 : Memref sig .tc .vmem S256 .f32) (h3 : a3.IsWhole)
    (a4 : Memref sig .tc .vmem S256 .f32) (h4 : a4.IsWhole) (hc : cond1_0 i)
    (x0 : Vec F S5000x256 .f32) (x1 : Vec F S256 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S256) off1_zero]
  simp only [View.readAt_eq_ld, h1.read_unread, h2.read_unread, View.readCov_unit_zero (S := S256) _ off1_zero,
    View.ld_unit_zero (S := S5000x256) off2_zero, View.ld_unit_zero (S := S256) off1_zero]

end Pieces

/-! ## The body's arithmetic at a channel, over the extended reals -/

/-- The source index of the row reduction over channel `j` with row `p` put back is `(p, j)`. -/
theorem lift_rows (p : Fin 5000) (j : Fin 256) :
    reduces_S5000x256_S256.lift (ix1 j) p = (ix2 p j : S5000x256.Idx) := by
  funext a
  match a with
  | ⟨0, _⟩ => rfl
  | ⟨1, _⟩ => rfl

/-- The biased block at `(p, j)`: the block's entry plus the bias of channel `j`. -/
theorem biased_block_apply (x0 : Vec Ideal S5000x256 .f32) (x1 : Vec Ideal S256 .f32) (p : Fin 5000) (j : Fin 256) :
    k1_pay3 x0 x1 (ix2 p j) = x0 (ix2 p j) + x1 (ix1 j) := by
  unfold k1_pay3
  show shapeCast S5000x256 x0 shapeCasts_S5000x256_S5000x256 (ix2 p j)
      + broadcastTo S5000x256 (shapeCast S1x256 x1 shapeCasts_S256_S1x256) broadcasts_S1x256_S5000x256 (ix2 p j) = _
  rw [shapeCast_self]
  refine congrArg (x0 (ix2 p j) + ·) ?_
  exact (broadcastTo_1b_ab_apply _ _ p j).trans (shapeCast_a_1a_apply x1 _ 0 j)

/-- The reduction of a 5000 × 256 block along its rows, at channel `j`, is the sum of column `j`. -/
theorem row_reduction_apply (v : FVec Ideal S5000x256 .f32) (hacc : (0x00000000#32 : BitVec 32) = 0x00000000#32)
    (j : Fin 256) :
    multiReduction .add [0] S256 v 0x00000000#32 reduces_S5000x256_S256 (.inl rfl) hacc (ix1 j)
      = ∑ p : Fin 5000, v (ix2 p j) := by
  refine (Ideal.multiReduction_add_single v 0x00000000#32 reduces_S5000x256_S256 (.inl rfl) hacc (ix1 j)).trans ?_
  exact Finset.sum_congr rfl fun p _ => congrArg v (lift_rows p j)

/-- The sum accumulator's update at channel `j`: the previous value plus the block's column sum of `A + b`. -/
theorem sum_update_apply (x0 : Vec Ideal S5000x256 .f32) (x1 acc : Vec Ideal S256 .f32) (j : Fin 256) :
    k1_pay4 x0 x1 acc (ix1 j) = acc (ix1 j) + ∑ p : Fin 5000, (x0 (ix2 p j) + x1 (ix1 j)) := by
  unfold k1_pay4
  show shapeCast S256 acc shapeCasts_S256_S256 (ix1 j)
      + multiReduction .add [0] S256 (k1_pay3 x0 x1) 0x00000000#32 reduces_S5000x256_S256 (.inl rfl) rfl (ix1 j) = _
  rw [shapeCast_self]
  refine congrArg (acc (ix1 j) + ·) ?_
  refine (row_reduction_apply (k1_pay3 x0 x1) rfl j).trans ?_
  exact Finset.sum_congr rfl fun p _ => biased_block_apply x0 x1 p j

/-- The sum-of-squares accumulator's update at channel `j`: the previous value plus the block's column sum of `(A + b)²`. -/
theorem sumsq_update_apply (x0 : Vec Ideal S5000x256 .f32) (x1 acc : Vec Ideal S256 .f32) (j : Fin 256) :
    k1_pay5 x0 x1 acc (ix1 j)
      = acc (ix1 j) + ∑ p : Fin 5000, (x0 (ix2 p j) + x1 (ix1 j)) * (x0 (ix2 p j) + x1 (ix1 j)) := by
  unfold k1_pay5
  show shapeCast S256 acc shapeCasts_S256_S256 (ix1 j)
      + multiReduction .add [0] S256 (mulf (k1_pay3 x0 x1) (k1_pay3 x0 x1)) 0x00000000#32 reduces_S5000x256_S256
          (.inl rfl) rfl (ix1 j) = _
  rw [shapeCast_self]
  refine congrArg (acc (ix1 j) + ·) ?_
  refine (row_reduction_apply (mulf (k1_pay3 x0 x1) (k1_pay3 x0 x1)) rfl j).trans ?_
  refine Finset.sum_congr rfl fun p _ => ?_
  show k1_pay3 x0 x1 (ix2 p j) * k1_pay3 x0 x1 (ix2 p j) = _
  rw [biased_block_apply]

/-- The vector the first point clears the sum accumulator with is zero at every channel. -/
theorem zero_sum_apply (j : Fin 256) : (k1_pay1 (F := Ideal)) (ix1 j) = 0 := Ideal.ofBits_zero_f32
/-- The vector the first point clears the sum-of-squares accumulator with is zero at every channel. -/
theorem zero_sumsq_apply (j : Fin 256) : (k1_pay2 (F := Ideal)) (ix1 j) = 0 := Ideal.ofBits_zero_f32

/-! ## The blocks a grid point reads -/

/-- The aggregate's 5000 × 256 block at a grid point. -/
abbrev aggBlock (c : Dev nD) (t : Fin cfg1.N) : Vec Ideal S5000x256 .f32 := iblk1 V c 0 t
/-- The bias as a grid point sees it. -/
abbrev biasBlock (c : Dev nD) (t : Fin cfg1.N) : Vec Ideal S256 .f32 := iblk1 V c 1 t
/-- The aggregate, 50000 × 256. -/
abbrev aggArr (c : Dev nD) : SN.Idx → EReal := V c main_v38
/-- The bias, one value per channel. -/
abbrev biasArr (c : Dev nD) : SD.Idx → EReal := V c main_arg3

/-- Row `p` of block `s` is row `5000 s + p` of the array (reduced modulo 50000, so that it is a row for every `s`). -/
def rowOf (s : ℕ) (p : Fin 5000) : Fin 50000 := ⟨(5000 * s + p.val) % 50000, Nat.mod_lt _ (by norm_num)⟩

/-- The block indices of the two inputs at a grid point: the aggregate's row block is the point, its column block and
    the bias's block are 0. -/
theorem block_indices : ∀ t : Fin cfg1.N,
    win1_0.index t 0 = t.val ∧ win1_0.index t 1 = 0 ∧ win1_1.index t 0 = 0 :=
  (by decide +kernel : ∀ t : Fin grid1.N, win1_0.index t 0 = t.val ∧ win1_0.index t 1 = 0 ∧ win1_1.index t 0 = 0)

/-- The aggregate's block at point `t`, at `(p, j)`, is the aggregate at row `5000 t + p`, channel `j`. -/
theorem aggBlock_apply (c : Dev nD) (t : Fin cfg1.N) (p : Fin 5000) (j : Fin 256) :
    aggBlock V c t (ix2 p j) = aggArr V c (ix2 (rowOf t.val p) j) := by
  have hN : t.val < 10 := lt_of_lt_of_eq t.isLt (show cfg1.N = 10 from N_1)
  obtain ⟨i0, i1, -⟩ := block_indices t
  show iblk1 V c 0 t (ix2 p j) = _
  unfold iblk1
  rw [View.read_apply]
  show V c main_v38 _ = V c main_v38 _
  congr 1
  funext a
  apply Fin.ext
  match a with
  | ⟨0, _⟩ =>
    show win1_0.index t 0 * 5000 + 1 * p.val = (5000 * t.val + p.val) % 50000
    rw [i0]; have := p.isLt; omega
  | ⟨1, _⟩ =>
    show win1_0.index t 1 * 256 + 1 * j.val = j.val
    rw [i1]; omega

/-- The bias a grid point sees, at channel `j`, is the bias at channel `j`. -/
theorem biasBlock_apply (c : Dev nD) (t : Fin cfg1.N) (j : Fin 256) :
    biasBlock V c t (ix1 j) = biasArr V c (ix1 j) := by
  obtain ⟨-, -, i0⟩ := block_indices t
  show iblk1 V c 1 t (ix1 j) = _
  unfold iblk1
  rw [View.read_apply]
  show V c main_arg3 _ = V c main_arg3 _
  congr 1
  funext a
  apply Fin.ext
  match a with
  | ⟨0, _⟩ =>
    show win1_1.index t 0 * 256 + 1 * j.val = j.val
    rw [i0]; omega

/-! ## The running sums, point by point -/

/-- The first point leaves, at channel `j` of the sum accumulator, its block's column sum of `A + b`. -/
theorem first_sum_apply (c : Dev nD) (i : grid1.Coords) (a1 : Memref sig .tc .vmem S5000x256 .f32) (h1 : a1.IsWhole)
    (a2 : Memref sig .tc .vmem S256 .f32) (h2 : a2.IsWhole) (a3 : Memref sig .tc .vmem S256 .f32) (h3 : a3.IsWhole)
    (a4 : Memref sig .tc .vmem S256 .f32) (h4 : a4.IsWhole) (hc : cond1_0 i)
    (x0 : Vec Ideal S5000x256 .f32) (x1 : Vec Ideal S256 .f32) (j : Fin 256) :
    out1_A_2 (F := Ideal) c i a1 h1 a2 h2 a3 h3 a4 h4 hc x0 x1 (ix1 j)
      = ∑ p : Fin 5000, (x0 (ix2 p j) + x1 (ix1 j)) := by
  rw [first_sum, sum_update_apply, zero_sum_apply, zero_add]

/-- The first point leaves, at channel `j` of the sum-of-squares accumulator, its block's column sum of `(A + b)²`. -/
theorem first_sumsq_apply (c : Dev nD) (i : grid1.Coords) (a1 : Memref sig .tc .vmem S5000x256 .f32) (h1 : a1.IsWhole)
    (a2 : Memref sig .tc .vmem S256 .f32) (h2 : a2.IsWhole) (a3 : Memref sig .tc .vmem S256 .f32) (h3 : a3.IsWhole)
    (a4 : Memref sig .tc .vmem S256 .f32) (h4 : a4.IsWhole) (hc : cond1_0 i)
    (x0 : Vec Ideal S5000x256 .f32) (x1 : Vec Ideal S256 .f32) (j : Fin 256) :
    out1_A_3 (F := Ideal) c i a1 h1 a2 h2 a3 h3 a4 h4 hc x0 x1 (ix1 j)
      = ∑ p : Fin 5000, (x0 (ix2 p j) + x1 (ix1 j)) * (x0 (ix2 p j) + x1 (ix1 j)) := by
  rw [first_sumsq, sumsq_update_apply, zero_sumsq_apply, zero_add]

/-- A later point leaves, at channel `j` of the sum accumulator, what was there plus its block's column sum of `A + b`. -/
theorem later_sum_apply (c : Dev nD) (i : grid1.Coords) (a1 : Memref sig .tc .vmem S5000x256 .f32) (h1 : a1.IsWhole)
    (a2 : Memref sig .tc .vmem S256 .f32) (h2 : a2.IsWhole) (a3 : Memref sig .tc .vmem S256 .f32) (h3 : a3.IsWhole)
    (a4 : Memref sig .tc .vmem S256 .f32) (h4 : a4.IsWhole) (hc : ¬cond1_0 i)
    (x0 : Vec Ideal S5000x256 .f32) (x1 xo2 xo3 : Vec Ideal S256 .f32) (j : Fin 256) :
    out1_B_2 (F := Ideal) c i a1 h1 a2 h2 a3 h3 a4 h4 hc x0 x1 xo2 xo3 (ix1 j)
      = xo2 (ix1 j) + ∑ p : Fin 5000, (x0 (ix2 p j) + x1 (ix1 j)) := by
  rw [later_sum, sum_update_apply]

/-- A later point leaves, at channel `j` of the sum-of-squares accumulator, what was there plus its block's column sum
    of `(A + b)²`. -/
theorem later_sumsq_apply (c : Dev nD) (i : grid1.Coords) (a1 : Memref sig .tc .vmem S5000x256 .f32) (h1 : a1.IsWhole)
    (a2 : Memref sig .tc .vmem S256 .f32) (h2 : a2.IsWhole) (a3 : Memref sig .tc .vmem S256 .f32) (h3 : a3.IsWhole)
    (a4 : Memref sig .tc .vmem S256 .f32) (h4 : a4.IsWhole) (hc : ¬cond1_0 i)
    (x0 : Vec Ideal S5000x256 .f32) (x1 xo2 xo3 : Vec Ideal S256 .f32) (j : Fin 256) :
    out1_B_3 (F := Ideal) c i a1 h1 a2 h2 a3 h3 a4 h4 hc x0 x1 xo2 xo3 (ix1 j)
      = xo3 (ix1 j) + ∑ p : Fin 5000, (x0 (ix2 p j) + x1 (ix1 j)) * (x0 (ix2 p j) + x1 (ix1 j)) := by
  rw [later_sumsq, sumsq_update_apply]

/-- Column `j`'s sum of `A + b` over the first `n` row blocks. -/
def partialSum (A : SN.Idx → EReal) (b : SD.Idx → EReal) (j : Fin 256) (n : ℕ) : EReal :=
  ∑ s ∈ Finset.range n, ∑ p : Fin 5000, biased A b (rowOf s p) j
/-- Column `j`'s sum of `(A + b)²` over the first `n` row blocks. -/
def partialSumSq (A : SN.Idx → EReal) (b : SD.Idx → EReal) (j : Fin 256) (n : ℕ) : EReal :=
  ∑ s ∈ Finset.range n, ∑ p : Fin 5000, biased A b (rowOf s p) j * biased A b (rowOf s p) j

/-- Block `t`'s column sum of `A + b`, read off the array. -/
theorem block_sum (c : Dev nD) (t : Fin cfg1.N) (j : Fin 256) :
    ∑ p : Fin 5000, (aggBlock V c t (ix2 p j) + biasBlock V c t (ix1 j))
      = ∑ p : Fin 5000, biased (aggArr V c) (biasArr V c) (rowOf t.val p) j :=
  Finset.sum_congr rfl fun p _ => by rw [aggBlock_apply, biasBlock_apply]; rfl

/-- Block `t`'s column sum of `(A + b)²`, read off the array. -/
theorem block_sumsq (c : Dev nD) (t : Fin cfg1.N) (j : Fin 256) :
    ∑ p : Fin 5000, (aggBlock V c t (ix2 p j) + biasBlock V c t (ix1 j)) * (aggBlock V c t (ix2 p j) + biasBlock V c t (ix1 j))
      = ∑ p : Fin 5000, biased (aggArr V c) (biasArr V c) (rowOf t.val p) j * biased (aggArr V c) (biasArr V c) (rowOf t.val p) j :=
  Finset.sum_congr rfl fun p _ => by rw [aggBlock_apply, biasBlock_apply]; rfl

/-- After point `n` the two accumulators hold, at channel `j`, the sums over the first `n + 1` row blocks: point 0
    starts from zero, every later point adds its block to what the point before left. -/
theorem running_sums (c : Dev nD) (j : Fin 256) : ∀ (n : ℕ) (h : n < cfg1.N),
    (outsAt1 V c n h).1 (ix1 j) = partialSum (aggArr V c) (biasArr V c) j (n + 1)
      ∧ (outsAt1 V c n h).2 (ix1 j) = partialSumSq (aggArr V c) (biasArr V c) j (n + 1)
  | 0, h => by
    rw [outsAt1_A V c ⟨0, h⟩ rfl]
    dsimp only
    refine ⟨?_, ?_⟩
    · refine (first_sum_apply c (grid1.coords ⟨0, h⟩) (ms1_0 ⟨0, h⟩) (hs1_0 ⟨0, h⟩) (ms1_1 ⟨0, h⟩) (hs1_1 ⟨0, h⟩)
        (ms1_2 ⟨0, h⟩) (hs1_2 ⟨0, h⟩) (ms1_3 ⟨0, h⟩) (hs1_3 ⟨0, h⟩) ((hcond1_0 ⟨0, h⟩).mpr rfl)
        (aggBlock V c ⟨0, h⟩) (biasBlock V c ⟨0, h⟩) j).trans ?_
      refine (block_sum V c ⟨0, h⟩ j).trans ?_
      unfold partialSum
      rw [Finset.sum_range_succ, Finset.sum_range_zero, zero_add]
    · refine (first_sumsq_apply c (grid1.coords ⟨0, h⟩) (ms1_0 ⟨0, h⟩) (hs1_0 ⟨0, h⟩) (ms1_1 ⟨0, h⟩) (hs1_1 ⟨0, h⟩)
        (ms1_2 ⟨0, h⟩) (hs1_2 ⟨0, h⟩) (ms1_3 ⟨0, h⟩) (hs1_3 ⟨0, h⟩) ((hcond1_0 ⟨0, h⟩).mpr rfl)
        (aggBlock V c ⟨0, h⟩) (biasBlock V c ⟨0, h⟩) j).trans ?_
      refine (block_sumsq V c ⟨0, h⟩ j).trans ?_
      unfold partialSumSq
      rw [Finset.sum_range_succ, Finset.sum_range_zero, zero_add]
  | n + 1, h => by
    have hN : cfg1.N = 10 := N_1
    have hB : ¬(⟨n + 1, h⟩ : Fin cfg1.N).val % 10 = 0 := by dsimp only; omega
    obtain ⟨ih1, ih2⟩ := running_sums c j n (Nat.lt_of_succ_lt h)
    rw [outsAt1_B V c ⟨n + 1, h⟩ hB]
    dsimp only
    refine ⟨?_, ?_⟩
    · refine (later_sum_apply c (grid1.coords ⟨n + 1, h⟩) (ms1_0 ⟨n + 1, h⟩) (hs1_0 ⟨n + 1, h⟩) (ms1_1 ⟨n + 1, h⟩)
        (hs1_1 ⟨n + 1, h⟩) (ms1_2 ⟨n + 1, h⟩) (hs1_2 ⟨n + 1, h⟩) (ms1_3 ⟨n + 1, h⟩) (hs1_3 ⟨n + 1, h⟩)
        (fun hh => hB ((hcond1_0 ⟨n + 1, h⟩).mp hh)) (aggBlock V c ⟨n + 1, h⟩) (biasBlock V c ⟨n + 1, h⟩)
        (outsAt1 V c n (Nat.lt_of_succ_lt h)).1 (outsAt1 V c n (Nat.lt_of_succ_lt h)).2 j).trans ?_
      refine (congrArg₂ (· + ·) ih1 (block_sum V c ⟨n + 1, h⟩ j)).trans ?_
      unfold partialSum
      rw [Finset.sum_range_succ _ (n + 1)]
    · refine (later_sumsq_apply c (grid1.coords ⟨n + 1, h⟩) (ms1_0 ⟨n + 1, h⟩) (hs1_0 ⟨n + 1, h⟩) (ms1_1 ⟨n + 1, h⟩)
        (hs1_1 ⟨n + 1, h⟩) (ms1_2 ⟨n + 1, h⟩) (hs1_2 ⟨n + 1, h⟩) (ms1_3 ⟨n + 1, h⟩) (hs1_3 ⟨n + 1, h⟩)
        (fun hh => hB ((hcond1_0 ⟨n + 1, h⟩).mp hh)) (aggBlock V c ⟨n + 1, h⟩) (biasBlock V c ⟨n + 1, h⟩)
        (outsAt1 V c n (Nat.lt_of_succ_lt h)).1 (outsAt1 V c n (Nat.lt_of_succ_lt h)).2 j).trans ?_
      refine (congrArg₂ (· + ·) ih2 (block_sumsq V c ⟨n + 1, h⟩ j)).trans ?_
      unfold partialSumSq
      rw [Finset.sum_range_succ _ (n + 1)]

/-! ## From the last point to the arrays, and from ten blocks to all rows -/

/-- What the two accumulators hold after the last point. -/
abbrev finalSums (c : Dev nD) : Vec Ideal S256 .f32 × Vec Ideal S256 .f32 :=
  outsAt1 V c 9 (by rw [show cfg1.N = 10 from N_1]; decide)

/-- The sum accumulator is written back once, at the last point, whole. -/
theorem sum_written (c : Dev nD) (t : Fin cfg1.N) (hf : (cfg1.win 2).flush t = true) :
    (dat1 V c).flushed 2 t = ((cfg1.win 2).blk t).view.read (Elt Ideal) (finalSums V c).1 := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v39_0.ty.shape.size a) = fun _ => 0 :=
    funext fun a => by fin_cases a; decide
  exact (Memref.read_access_unit_zero (Elt Ideal) main_v39_0 hz' (fun a => by rw [congrFun hz' a]; simp)
    (finalSums V c).1).symm

/-- The sum-of-squares accumulator is written back once, at the last point, whole. -/
theorem sumsq_written (c : Dev nD) (t : Fin cfg1.N) (hf : (cfg1.win 3).flush t = true) :
    (dat1 V c).flushed 3 t = ((cfg1.win 3).blk t).view.read (Elt Ideal) (finalSums V c).2 := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v39_1.ty.shape.size a) = fun _ => 0 :=
    funext fun a => by fin_cases a; decide
  exact (Memref.read_access_unit_zero (Elt Ideal) main_v39_1 hz' (fun a => by rw [congrFun hz' a]; simp)
    (finalSums V c).2).symm

/-- So the first output array ends holding the sum accumulator's contents after the last point. -/
theorem sum_array (c : Dev nD) : (dat1 V c).arrAt 2 cfg1.N = (finalSums V c).1 :=
  (dat1 V c).arrAt_eq_of_cover 2 (finalSums V c).1 (sum_written V c) fun i =>
    ⟨t1_9, (flush1_2 t1_9).mpr rfl, by
      show i ∈ ((View.whole main_v39_0).slice (win1_2.rect t1_9)).set
      rw [View.set_slice_whole, Rect.mem_set_unit]
      intro a
      have h0 : (i 0 : Nat) < 256 := (i 0).isLt
      match a with
      | ⟨0, _⟩ =>
        show win1_2.index t1_9 0 * win1_2.size 0 ≤ (i 0 : Nat)
          ∧ (i 0 : Nat) < win1_2.index t1_9 0 * win1_2.size 0 + win1_2.xsize (grid1.coords t1_9) 0
        rw [show win1_2.index t1_9 0 * win1_2.size 0 = 0 from by decide +kernel,
          show win1_2.xsize (grid1.coords t1_9) 0 = 256 from by decide +kernel]
        omega⟩

/-- And the second output array the sum-of-squares accumulator's. -/
theorem sumsq_array (c : Dev nD) : (dat1 V c).arrAt 3 cfg1.N = (finalSums V c).2 :=
  (dat1 V c).arrAt_eq_of_cover 3 (finalSums V c).2 (sumsq_written V c) fun i =>
    ⟨t1_9, (flush1_3 t1_9).mpr rfl, by
      show i ∈ ((View.whole main_v39_1).slice (win1_3.rect t1_9)).set
      rw [View.set_slice_whole, Rect.mem_set_unit]
      intro a
      have h0 : (i 0 : Nat) < 256 := (i 0).isLt
      match a with
      | ⟨0, _⟩ =>
        show win1_3.index t1_9 0 * win1_3.size 0 ≤ (i 0 : Nat)
          ∧ (i 0 : Nat) < win1_3.index t1_9 0 * win1_3.size 0 + win1_3.xsize (grid1.coords t1_9) 0
        rw [show win1_3.index t1_9 0 * win1_3.size 0 = 0 from by decide +kernel,
          show win1_3.xsize (grid1.coords t1_9) 0 = 256 from by decide +kernel]
        omega⟩

/-- Ten blocks of 5000 rows are all 50000 rows: `(s, p) ↦ 5000 s + p` is a bijection of `Fin 10 × Fin 5000` with
    `Fin 50000`. -/
theorem sum_all_rows {M : Type*} [AddCommMonoid M] (f : Fin 50000 → M) :
    ∑ s ∈ Finset.range 10, ∑ p : Fin 5000, f (rowOf s p) = ∑ k : Fin 50000, f k := by
  rw [Finset.sum_range]
  refine (Fintype.sum_prod_type' (fun (s : Fin 10) (p : Fin 5000) => f (rowOf s.val p))).symm.trans ?_
  refine Fintype.sum_equiv (finProdFinEquiv (m := 10) (n := 5000)) _ _ fun x => congrArg f (Fin.ext ?_)
  show (5000 * x.1.val + x.2.val) % 50000 = x.2.val + 5000 * x.1.val
  have h1 := x.1.isLt
  have h2 := x.2.isLt
  omega

end ColumnSums

/-- What region 1 leaves in its first output array: channel `j`'s sum of `A r j + b j` over every node `r`. -/
theorem colsum_value (c : Dev nD) (j : Fin 256) :
    ((dat1 (F := Ideal) V c).arrAt 2 cfg1.N : S256.Idx → EReal) (ix1 j) = colSum (V c main_v38) (V c main_arg3) j := by
  rw [ColumnSums.sum_array V c]
  refine ((ColumnSums.running_sums V c j 9 (by rw [show cfg1.N = 10 from N_1]; decide)).1).trans ?_
  unfold ColumnSums.partialSum colSum
  exact ColumnSums.sum_all_rows fun k => biased (V c main_v38) (V c main_arg3) k j

/-- What region 1 leaves in its second output array: channel `j`'s sum of `(A r j + b j)²` over every node `r`. -/
theorem colsumsq_value (c : Dev nD) (j : Fin 256) :
    ((dat1 (F := Ideal) V c).arrAt 3 cfg1.N : S256.Idx → EReal) (ix1 j) = colSumSq (V c main_v38) (V c main_arg3) j := by
  rw [ColumnSums.sumsq_array V c]
  refine ((ColumnSums.running_sums V c j 9 (by rw [show cfg1.N = 10 from N_1]; decide)).2).trans ?_
  unfold ColumnSums.partialSumSq colSumSq
  exact ColumnSums.sum_all_rows fun k => biased (V c main_v38) (V c main_arg3) k j * biased (V c main_v38) (V c main_arg3) k j

end Cert.KernelIdeal.Val

end
-- ==== Proof.Normalize.lean ====
/-
  Region 2 of the kernel: the normalisation. Each of the ten grid points takes its 5000-row block of the aggregate,
  adds the bias, subtracts the channel mean, scales by `rsqrt (var + ε)` and by `γ`, adds `β` and clamps below at zero;
  the blocks tile the output, so the array the region leaves is that function of its six input arrays, entry by entry.
-/
import proofs.«413745_j1589137900159_2_alg».proof.Proof.Gen.KernelIdeal.Frame
import proofs.«413745_j1589137900159_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.GcnBn
open Idealize.ShloMosaic Idealize.ShloMosaic.TcCoe Idealize.ShloMosaic.ValueIdx Idealize.SL.Sem
open Idealize.ShloMosaic.Pipeline (Dat Cfg Window)

/- The TensorCore's buffer contents when the region is entered: the parameter the region's value is stated at. -/
variable (V : (c : Dev nD) → (b : Ref sig .tc) → Buf (Elt Ideal) ((c : Thread nD τ).loc b))

namespace Normalize

/-! ## The body's arithmetic at an entry -/

/-- One channel vector laid along the rows: cast to one row, then that row repeated over the 5000 rows; at entry
    `(p, q)` it reads the vector's entry `q`. -/
theorem row_apply (v : Vec Ideal S256 .f32) (p : Fin 5000) (q : Fin 256) :
    (broadcastTo S5000x256 (shapeCast S1x256 v shapeCasts_S256_S1x256) broadcasts_S1x256_S5000x256
      : S5000x256.Idx → EReal) (ix2 p q) = v (ix1 q) := by
  rw [broadcastTo_1b_ab_apply, shapeCast_a_1a_apply]

/-- A reciprocal square root at an index is that of the element. -/
theorem rsqrt_apply {s : Shape} (a : FVec Ideal s .f32) (i : s.Idx) : rsqrt a i = Ideal.rsqrt (a i) := rfl

/-- The body's value at entry `(p, q)` of a block: from the aggregate block `x0` and the five channel vectors (bias,
    mean, variance, scale, shift), `max (((x0 p q + b q − μ q) · rsqrt (var q + ε)) · γ q + β q) 0`. -/
theorem pay_apply (x0 : Vec Ideal S5000x256 .f32) (x1 x2 x3 x4 x5 : Vec Ideal S256 .f32) (p : Fin 5000) (q : Fin 256) :
    (k2_pay1 x0 x1 x2 x3 x4 x5 : S5000x256.Idx → EReal) (ix2 p q)
      = max (((x0 (ix2 p q) + x1 (ix1 q)) - x2 (ix1 q)) * Ideal.rsqrt (x3 (ix1 q) + eps) * x4 (ix1 q) + x5 (ix1 q)) 0 := by
  unfold k2_pay1
  simp only [maximumf_apply, addf_apply, mulf_apply, subf_apply, row_apply, shapeCast_self, broadcast_apply,
    rsqrt_apply, Ideal.ofBits_def, Ideal.ofBits_zero_f32]
  rfl

/-- The whole output array as one function of the six input arrays, entry by entry. -/
abbrev normArr (A : S50000x256.Idx → EReal) (b mu var g β : S256.Idx → EReal) : S50000x256.Idx → EReal :=
  fun i => normRelu A b mu var g β (i 0) (i 1)

/-- The body's value at a block entry `y`, when the aggregate block's entry there is the aggregate at array index `i`
    and `i`'s column is `y`'s, is the normalised value at `i`. -/
theorem point_value (A : S50000x256.Idx → EReal) (b mu var g β : S256.Idx → EReal)
    (x0 : Vec Ideal S5000x256 .f32) (y : S5000x256.Idx) (i : S50000x256.Idx)
    (h0 : x0 y = A i) (h1 : (i 1).val = (y 1).val) :
    (k2_pay1 x0 b mu var g β : S5000x256.Idx → EReal) y = normArr A b mu var g β i := by
  obtain ⟨p, q, rfl⟩ : ∃ (p : Fin 5000) (q : Fin 256), y = ix2 p q := ⟨y 0, y 1, eq_ix2 y⟩
  obtain ⟨r, s, rfl⟩ : ∃ (r : Fin 50000) (s : Fin 256), i = ix2 r s := ⟨i 0, i 1, eq_ix2 i⟩
  obtain rfl : s = q := Fin.ext h1
  rw [pay_apply, h0]
  rfl

/-! ## The blocks the ten points read -/

theorem zeros2 : (![0, 0] : Fin 2 → Nat) = fun _ => 0 := funext fun a => by fin_cases a <;> rfl
theorem zeros1 : (![0] : Fin 1 → Nat) = fun _ => 0 := funext fun a => by fin_cases a <;> rfl

/-- The index maps over the ten grid points: the two row-blocked windows (the aggregate and the output) sit at row
    block `t`, column block 0; the five channel vectors at block 0. -/
theorem idx_facts : ∀ t : Fin cfg2.N,
    win2_0.index t (0 : Fin 2) = t.val ∧ win2_0.index t (1 : Fin 2) = 0
    ∧ win2_1.index t (0 : Fin 1) = 0 ∧ win2_2.index t (0 : Fin 1) = 0 ∧ win2_3.index t (0 : Fin 1) = 0
    ∧ win2_4.index t (0 : Fin 1) = 0 ∧ win2_5.index t (0 : Fin 1) = 0
    ∧ win2_6.index t (0 : Fin 2) = t.val ∧ win2_6.index t (1 : Fin 2) = 0 :=
  (by decide +kernel : ∀ t : Fin grid2.N, _)

/-- The aggregate window's block at point `t` holds rows `5000 t … 5000 t + 4999` of the aggregate. -/
theorem blk0_apply (c : Dev nD) (t : Fin cfg2.N) (y : S5000x256.Idx) (i : S50000x256.Idx)
    (h0 : (i 0).val = t.val * 5000 + (y 0).val) (h1 : (i 1).val = (y 1).val) :
    (iblk2 V c 0 t : Vec Ideal S5000x256 .f32) y = (V c main_v38 : S50000x256.Idx → EReal) i := by
  obtain ⟨e0, e1, -⟩ := idx_facts t
  unfold iblk2
  rw [View.read_apply]
  show V c main_v38 _ = V c main_v38 i
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 256 + 1 * (y 1).val = (i 1).val; rw [e1, h1]; omega

/-- The bias window's block at any point is the whole bias vector, -/
theorem blk1_eq (c : Dev nD) (t : Fin cfg2.N) :
    (iblk2 V c 1 t : Vec Ideal S256 .f32) = (V c main_arg3 : S256.Idx → EReal) := by
  obtain ⟨-, -, e, -⟩ := idx_facts t
  funext y
  unfold iblk2
  rw [View.read_apply]
  show V c main_arg3 _ = V c main_arg3 y
  congr 1
  funext a
  apply Fin.ext
  match a with
  | ⟨0, _⟩ => show win2_1.index t (0 : Fin 1) * 256 + 1 * (y 0).val = (y 0).val; rw [e]; omega

/-- the mean window's the whole mean vector, -/
theorem blk2_eq (c : Dev nD) (t : Fin cfg2.N) :
    (iblk2 V c 2 t : Vec Ideal S256 .f32) = (V c main_v41 : S256.Idx → EReal) := by
  obtain ⟨-, -, -, e, -⟩ := idx_facts t
  funext y
  unfold iblk2
  rw [View.read_apply]
  show V c main_v41 _ = V c main_v41 y
  congr 1
  funext a
  apply Fin.ext
  match a with
  | ⟨0, _⟩ => show win2_2.index t (0 : Fin 1) * 256 + 1 * (y 0).val = (y 0).val; rw [e]; omega

/-- the variance window's the whole variance vector, -/
theorem blk3_eq (c : Dev nD) (t : Fin cfg2.N) :
    (iblk2 V c 3 t : Vec Ideal S256 .f32) = (V c main_v45 : S256.Idx → EReal) := by
  obtain ⟨-, -, -, -, e, -⟩ := idx_facts t
  funext y
  unfold iblk2
  rw [View.read_apply]
  show V c main_v45 _ = V c main_v45 y
  congr 1
  funext a
  apply Fin.ext
  match a with
  | ⟨0, _⟩ => show win2_3.index t (0 : Fin 1) * 256 + 1 * (y 0).val = (y 0).val; rw [e]; omega

/-- the scale window's the whole scale vector, -/
theorem blk4_eq (c : Dev nD) (t : Fin cfg2.N) :
    (iblk2 V c 4 t : Vec Ideal S256 .f32) = (V c main_arg4 : S256.Idx → EReal) := by
  obtain ⟨-, -, -, -, -, e, -⟩ := idx_facts t
  funext y
  unfold iblk2
  rw [View.read_apply]
  show V c main_arg4 _ = V c main_arg4 y
  congr 1
  funext a
  apply Fin.ext
  match a with
  | ⟨0, _⟩ => show win2_4.index t (0 : Fin 1) * 256 + 1 * (y 0).val = (y 0).val; rw [e]; omega

/-- and the shift window's the whole shift vector. -/
theorem blk5_eq (c : Dev nD) (t : Fin cfg2.N) :
    (iblk2 V c 5 t : Vec Ideal S256 .f32) = (V c main_arg5 : S256.Idx → EReal) := by
  obtain ⟨-, -, -, -, -, -, e, -⟩ := idx_facts t
  funext y
  unfold iblk2
  rw [View.read_apply]
  show V c main_arg5 _ = V c main_arg5 y
  congr 1
  funext a
  apply Fin.ext
  match a with
  | ⟨0, _⟩ => show win2_5.index t (0 : Fin 1) * 256 + 1 * (y 0).val = (y 0).val; rw [e]; omega

/-! ## From the blocks to the array -/

/-- What point `t` writes back is block `t` of the normalised array: entry `y` of the block is array entry
    `(5000 t + y 0, y 1)`, where the aggregate block holds the aggregate's entry. -/
theorem flushed_eq (c : Dev nD) (t : Fin cfg2.N) :
    (dat2 (F := Ideal) V c).flushed 6 t = ((cfg2.win 6).blk t).view.read (Elt Ideal)
      (normArr (V c main_v38) (V c main_arg3) (V c main_v41) (V c main_v45) (V c main_arg4) (V c main_arg5)) := by
  show (cfg2.win 6).cut (grid2.coords t) ((dat2 V c).after 6 t) = _
  rw [after2_6]
  unfold out2_6
  rw [View.canon_unit_zero zeros2]
  simp only [View.ld_unit_zero (S := S5000x256) zeros2, View.ld_unit_zero (S := S256) zeros1]
  rw [blk1_eq, blk2_eq, blk3_eq, blk4_eq, blk5_eq]
  obtain ⟨-, -, -, -, -, -, -, e0, e1⟩ := idx_facts t
  funext y
  show (k2_pay1 (iblk2 V c 0 t) (V c main_arg3) (V c main_v41) (V c main_v45) (V c main_arg4) (V c main_arg5)
      : S5000x256.Idx → EReal) y
    = normArr (V c main_v38) (V c main_arg3) (V c main_v41) (V c main_v45) (V c main_arg4) (V c main_arg5)
        (((cfg2.win 6).blk t).view.emb y)
  have a0 : ((((cfg2.win 6).blk t).view.emb y : S50000x256.Idx) 0).val = t.val * 5000 + (y 0).val := by
    show win2_6.index t (0 : Fin 2) * 5000 + 1 * (y 0).val = _
    rw [e0]; omega
  have a1 : ((((cfg2.win 6).blk t).view.emb y : S50000x256.Idx) 1).val = (y 1).val := by
    show win2_6.index t (1 : Fin 2) * 256 + 1 * (y 1).val = _
    rw [e1]; omega
  exact point_value _ _ _ _ _ _ (iblk2 V c 0 t) y _ (blk0_apply V c t y _ a0 a1) a1

/-- Every entry of the output array lies in some point's block: row `r` in that of point `r / 5000`. -/
theorem covered (i : S50000x256.Idx) :
    ∃ t : Fin cfg2.N, (cfg2.win 6).flush t = true ∧ i ∈ ((cfg2.win 6).blk t).view.set := by
  have hi0 : (i 0).val < 50000 := (i 0).isLt
  have hi1 : (i 1).val < 256 := (i 1).isLt
  have hN : cfg2.N = 10 := N_2
  let t : Fin cfg2.N := ⟨(i 0).val / 5000, by rw [hN]; omega⟩
  obtain ⟨-, -, -, -, -, -, -, e0, e1⟩ := idx_facts t
  have ht : t.val = (i 0).val / 5000 := rfl
  refine ⟨t, flush2_6 t, ?_⟩
  show i ∈ ((View.whole main_v46).slice (win2_6.rect t)).set
  rw [View.set_slice_whole, Rect.mem_set_unit]
  intro a
  match a with
  | ⟨0, _⟩ =>
    show win2_6.index t (0 : Fin 2) * 5000 ≤ (i 0).val ∧ (i 0).val < win2_6.index t (0 : Fin 2) * 5000 + 5000
    rw [e0, ht]; omega
  | ⟨1, _⟩ =>
    show win2_6.index t (1 : Fin 2) * 256 ≤ (i 1).val ∧ (i 1).val < win2_6.index t (1 : Fin 2) * 256 + 256
    rw [e1]; omega

end Normalize

open Normalize in
/-- What region 2 leaves in its output array, at an entry, from its six input arrays as the region found them:
    the aggregate, the bias, the mean, the variance, the scale and the shift. -/
theorem normalize_value (c : Dev nD) (r : Fin 50000) (j : Fin 256) :
    ((dat2 (F := Ideal) V c).arrAt 6 cfg2.N : S50000x256.Idx → EReal) (ix2 r j)
      = normRelu (V c main_v38) (V c main_arg3) (V c main_v41) (V c main_v45) (V c main_arg4) (V c main_arg5) r j := by
  rw [(dat2 (F := Ideal) V c).arrAt_eq_of_cover 6
    (normArr (V c main_v38) (V c main_arg3) (V c main_v41) (V c main_v45) (V c main_arg4) (V c main_arg5))
    (fun t _ => flushed_eq V c t) covered]

end Cert.KernelIdeal.Val

end
-- ==== Proof.KernelValue.lean ====
/-
  The kernel's result, entry by entry, over its aggregate.

  Reading back from the result buffer: region 2 leaves `max (((v − μ) · rsqrt (var + ε)) · γ + β) 0` of the arrays it
  was entered with (`v = A + b`); its mean and variance come from the host's `Σv / N` and `Σv² / N − (Σv / N)²` of
  region 1's two column sums; region 1 was entered with the same aggregate `A` and bias. So the result is `kerOut`
  of the kernel's aggregate, the bias, the scale and the shift.
-/
import proofs.«413745_j1589137900159_2_alg».proof.Proof.HostEntry1
import proofs.«413745_j1589137900159_2_alg».proof.Proof.HostEntry2
import proofs.«413745_j1589137900159_2_alg».proof.Proof.ColumnSums
import proofs.«413745_j1589137900159_2_alg».proof.Proof.Normalize
import proofs.«413745_j1589137900159_2_alg».proof.Proof.Spec
import Idealize.ShloMosaic.Lib.ValueIdx
import Idealize.ShloMosaic.PureOps.Ideal.Laws

set_option maxRecDepth 16384

noncomputable section

namespace Cert.KernelIdeal.Val

open Cert.KernelIdeal Cert.KernelIdeal.Gen Cert.GcnBn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The kernel's aggregate: what the host leaves in the buffer regions 1 and 2 read it from. -/
def aggK (c : Dev nD) : S50000x256.Idx → EReal := W6 m ρ c (Proc.devRef .tc main_v38)
/-- The bias, the scale and the shift as launched, as arrays of extended reals. -/
abbrev biasArr (c : Dev nD) : S256.Idx → EReal := m ((c : Thread nD τ).loc main_arg3)
abbrev scaleArr (c : Dev nD) : S256.Idx → EReal := m ((c : Thread nD τ).loc main_arg4)
abbrev shiftArr (c : Dev nD) : S256.Idx → EReal := m ((c : Thread nD τ).loc main_arg5)

/-- The mean region 2 is entered with, at channel `j`: the channel mean of the biased aggregate. -/
theorem mean_entry (c : Dev nD) (j : Fin 256) :
    (W8 m ρ c (Proc.devRef .tc main_v41) : S256.Idx → EReal) (ix1 j) = mean (aggK m ρ c) (biasArr m c) j := by
  rw [mean_at_W8, sum_at_W7]
  show Ideal.div (((dat1 (F := Ideal) (V6 m ρ) c).arrAt 2 cfg1.N : S256.Idx → EReal) (ix1 j)) _ = _
  rw [colsum_value (V6 m ρ) c j]
  show Ideal.div (colSum (W6 m ρ c (Proc.devRef .tc main_v38)) (W6 m ρ c (Proc.devRef .tc main_arg3)) j) _ = _
  rw [b_at_W6]
  rfl

/-- The variance region 2 is entered with, at channel `j`: the raw-moment variance of the biased aggregate. -/
theorem var_entry (c : Dev nD) (j : Fin 256) :
    (W8 m ρ c (Proc.devRef .tc main_v45) : S256.Idx → EReal) (ix1 j) = varMoments (aggK m ρ c) (biasArr m c) j := by
  rw [var_at_W8, sum_at_W7, sumsq_at_W7]
  show Ideal.div (((dat1 (F := Ideal) (V6 m ρ) c).arrAt 3 cfg1.N : S256.Idx → EReal) (ix1 j)) _
      - Ideal.div (((dat1 (F := Ideal) (V6 m ρ) c).arrAt 2 cfg1.N : S256.Idx → EReal) (ix1 j)) _
        * Ideal.div (((dat1 (F := Ideal) (V6 m ρ) c).arrAt 2 cfg1.N : S256.Idx → EReal) (ix1 j)) _ = _
  rw [colsum_value (V6 m ρ) c j, colsumsq_value (V6 m ρ) c j]
  show Ideal.div (colSumSq (W6 m ρ c (Proc.devRef .tc main_v38)) (W6 m ρ c (Proc.devRef .tc main_arg3)) j) _
      - Ideal.div (colSum (W6 m ρ c (Proc.devRef .tc main_v38)) (W6 m ρ c (Proc.devRef .tc main_arg3)) j) _
        * Ideal.div (colSum (W6 m ρ c (Proc.devRef .tc main_v38)) (W6 m ρ c (Proc.devRef .tc main_arg3)) j) _ = _
  rw [b_at_W6]
  rfl

/-- The kernel's result at node `r`, channel `j`. -/
theorem result_value (c : Dev nD) (r : Fin 50000) (j : Fin 256) :
    (W9 m ρ c (Proc.devRef .tc main_v46) : S50000x256.Idx → EReal) (ix2 r j)
      = kerOut (aggK m ρ c) (biasArr m c) (scaleArr m c) (shiftArr m c) r j := by
  rw [out_at_W9]
  show ((dat2 (F := Ideal) (V8 m ρ) c).arrAt 6 cfg2.N : S50000x256.Idx → EReal) (ix2 r j) = _
  rw [normalize_value (V8 m ρ) c r j]
  show normRelu (W8 m ρ c (Proc.devRef .tc main_v38)) (W8 m ρ c (Proc.devRef .tc main_arg3)) (W8 m ρ c (Proc.devRef .tc main_v41))
      (W8 m ρ c (Proc.devRef .tc main_v45)) (W8 m ρ c (Proc.devRef .tc main_arg4)) (W8 m ρ c (Proc.devRef .tc main_arg5)) r j = _
  rw [agg_at_W8, b_at_W8, g_at_W8, β_at_W8]
  unfold kerOut normRelu
  rw [mean_entry m ρ c j, var_entry m ρ c j]
  rfl

end Cert.KernelIdeal.Val

end
-- ==== Proof.HostEntry0.lean ====
/-
  What region 0 (the linear transform) finds in memory. The host operations before it compute, from the edge array
  alone, the source ids, the destination ids and the edge weights `norm e = dinv[src e] · dinv[dst e]` (`dinv` the
  inverse square root of the in-degree, self loops counted); the reference computes the same three arrays by the
  same operations, so they are stated here as the reference's own stages of the edge array. The node features and
  the weight matrix are untouched: no operation before the region writes an argument.
-/
import proofs.«413745_j1589137900159_2_alg».proof.Proof.Gen.KernelIdeal.Frame
import proofs.«413745_j1589137900159_2_alg».proof.Proof.RefRead
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A stretch of host operations leaves a buffer none of them writes as it found it. -/
local macro "keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

set_option maxHeartbeats 2000000 in
/-- The source ids when region 0 is entered: the reference's stage of the edge array. -/
theorem src_at_W3 (c : Dev nD) :
    W3 m ρ c (Proc.devRef .tc main_v3) = Cert.ReferenceIdeal.ReadP.val_main_v3 (F := F) (m ((c : Thread nD τ).loc main_arg1)) := by
  dsimp only [W3, W2, W1]
  after_results
  (try simp only [TRef.ofBuf, TRef.toBuf, cast_eq])
  rfl

set_option maxHeartbeats 2000000 in
/-- The destination ids when region 0 is entered. -/
theorem dst_at_W3 (c : Dev nD) :
    W3 m ρ c (Proc.devRef .tc main_v6) = Cert.ReferenceIdeal.ReadP.val_main_v6 (F := F) (m ((c : Thread nD τ).loc main_arg1)) := by
  dsimp only [W3, W2, W1]
  after_results
  (try simp only [TRef.ofBuf, TRef.toBuf, cast_eq])
  rfl

set_option maxHeartbeats 2000000 in
/-- The edge weights when region 0 is entered. -/
theorem norm_at_W3 (c : Dev nD) :
    W3 m ρ c (Proc.devRef .tc main_v30) = Cert.ReferenceIdeal.ReadP.val_main_v30 (F := F) (m ((c : Thread nD τ).loc main_arg1)) := by
  dsimp only [W3, W2, W1]
  after_results
  (try simp only [TRef.ofBuf, TRef.toBuf, cast_eq])
  rfl

/-- The node features when region 0 is entered: as launched. -/
theorem x_at_W3 (c : Dev nD) : W3 m ρ c (Proc.devRef .tc main_arg0) = m ((c : Thread nD τ).loc main_arg0) :=
  calc W3 m ρ c (Proc.devRef .tc main_arg0)
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl

/-- The weight matrix when region 0 is entered: as launched. -/
theorem w_at_W3 (c : Dev nD) : W3 m ρ c (Proc.devRef .tc main_arg2) = m ((c : Thread nD τ).loc main_arg2) :=
  calc W3 m ρ c (Proc.devRef .tc main_arg2)
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl

end Cert.KernelIdeal.Val

end
-- ==== Proof.SpecMat.lean ====
/-
  The matrix product of a 50000 × 256 array with a 256 × 256 array, entry by entry: the linear transform
  `h r j = Σ_k x r k · w k j` that both programs apply to the node features before the aggregation.
-/
import Idealize.ShloMosaic.PureOps.Ideal
import Idealize.ShloMosaic.Lib.ValueIdx

noncomputable section

namespace Cert.GcnBn

open Idealize.ShloMosaic Idealize.ShloMosaic.ValueIdx

/-- Entry `(r, j)` of `x · w`. -/
def matProd (x : (⟨2, ![50000, 256]⟩ : Shape).Idx → EReal) (w : (⟨2, ![256, 256]⟩ : Shape).Idx → EReal)
    (r : Fin 50000) (j : Fin 256) : EReal :=
  ∑ k : Fin 256, x (ix2 r k) * w (ix2 k j)

end Cert.GcnBn

end
-- ==== Proof.MatmulBlocks.lean ====
/-
  Region 0 of the kernel: the linear transform `h = x · w`, ten blocks of 5000 rows. Each grid point loads its block of
  `x` and the whole of `w`, multiplies them into a zero accumulator and stores the 5000 × 256 product; block `t` is rows
  `5000 t … 5000 t + 4999`, so the ten blocks tile the output and entry `(r, j)` of the array the region leaves is
  `Σ_k x r k · w k j`.
-/
import proofs.«413745_j1589137900159_2_alg».proof.Proof.Gen.KernelIdeal.Frame
import proofs.«413745_j1589137900159_2_alg».proof.Proof.Spec
import proofs.«413745_j1589137900159_2_alg».proof.Proof.SpecMat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.GcnBn
open Idealize.ShloMosaic Idealize.ShloMosaic.TcCoe Idealize.ShloMosaic.ValueIdx Idealize.SL.Sem
open Idealize.ShloMosaic.Pipeline (Dat Cfg Window)

/- The TensorCore's buffer contents when the region is entered: the parameter the region's value is stated at. -/
variable (V : (c : Dev nD) → (b : Ref sig .tc) → Buf (Elt Ideal) ((c : Thread nD τ).loc b))

namespace Matmul

/-! ## One block's product at an entry -/

/-- The zero offsets of a whole-block access, however the zeros are spelt. -/
theorem hz : (![0, 0] : Fin 2 → Nat) = fun _ => 0 := funext fun a => by fin_cases a <;> rfl

/-- The product's left operand is read at the output's row … -/
theorem lhs_blk_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl
/-- … and the summation index, -/
theorem lhs_blk_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- the right operand at the summation index … -/
theorem rhs_blk_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- … and the output's column. -/
theorem rhs_blk_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- Entry `(p, q)` of what one grid point stores: the block of `x` times `w`, the narrowing of the operands being the
    identity on the extended reals and the accumulator zero. -/
theorem blockProduct_apply (x0 : Vec Ideal S5000x256 .f32) (x1 : Vec Ideal S256x256 .f32) (p : Fin 5000) (q : Fin 256) :
    (k0_pay1 (F := Ideal) x0 x1 : S5000x256.Idx → EReal) (ix2 p q) = ∑ k : Fin 256, x0 (ix2 p k) * x1 (ix2 k q) := by
  unfold k0_pay1
  refine (Ideal.matmul_constant_zero_apply dot_S5000x256_S256x256_S5000x256_1_0_0_1_n_n none _ _ (ix2 p q)).trans ?_
  rw [← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k :=
    funext fun a => Fin.ext (by
      match a with
      | ⟨0, _⟩ => exact lhs_blk_0 _ _
      | ⟨1, _⟩ => exact (lhs_blk_1 _ _).trans hk)
  have er : dot_S5000x256_S256x256_S5000x256_1_0_0_1_n_n.rhsIdx (ix2 p q)
      ((contrEquiv1 dot_S5000x256_S256x256_S5000x256_1_0_0_1_n_n 256 rfl rfl).symm k) = ix2 k q :=
    funext fun a => Fin.ext (by
      match a with
      | ⟨0, _⟩ => exact (rhs_blk_0 _ _).trans hk
      | ⟨1, _⟩ => exact rhs_blk_1 _ _)
  rw [el, er]
  rfl

/-- Hence, for a block `x0` that is rows `5000 n …` of an array `X` and a block `x1` that is the whole of `W`, entry
    `(p, q)` of the block's product is entry `(5000 n + p, q)` of `X · W`. -/
theorem blockProduct_eq (X : S50000x256.Idx → EReal) (W : S256x256.Idx → EReal)
    (x0 : Vec Ideal S5000x256 .f32) (x1 : Vec Ideal S256x256 .f32) (n : Nat)
    (h0 : ∀ (p : Fin 5000) (k : Fin 256) (r : Fin 50000), r.val = n * 5000 + p.val → x0 (ix2 p k) = X (ix2 r k))
    (h1 : ∀ (k q : Fin 256), x1 (ix2 k q) = W (ix2 k q))
    (p : Fin 5000) (q : Fin 256) (r : Fin 50000) (hr : r.val = n * 5000 + p.val) :
    (k0_pay1 (F := Ideal) x0 x1 : S5000x256.Idx → EReal) (ix2 p q) = matProd X W r q := by
  rw [blockProduct_apply]
  unfold matProd
  exact Finset.sum_congr rfl fun k _ => by rw [h0 p k r hr, h1]

/-- The same at any entry `y` of the block and any entry `i` of the array that sits at row `5000 n + y₀`, column `y₁`. -/
theorem blockProduct_at (X : S50000x256.Idx → EReal) (W : S256x256.Idx → EReal)
    (x0 : Vec Ideal S5000x256 .f32) (x1 : Vec Ideal S256x256 .f32) (n : Nat)
    (h0 : ∀ (p : Fin 5000) (k : Fin 256) (r : Fin 50000), r.val = n * 5000 + p.val → x0 (ix2 p k) = X (ix2 r k))
    (h1 : ∀ (k q : Fin 256), x1 (ix2 k q) = W (ix2 k q))
    (y : S5000x256.Idx) (i : S50000x256.Idx) (hi0 : (i 0).val = n * 5000 + (y 0).val) (hi1 : (i 1).val = (y 1).val) :
    (k0_pay1 (F := Ideal) x0 x1 : S5000x256.Idx → EReal) y = matProd X W (i 0) (i 1) := by
  have hq : (i 1 : Fin 256) = (y 1 : Fin 256) := Fin.ext hi1
  rw [eq_ix2 y, hq]
  exact blockProduct_eq X W x0 x1 n h0 h1 (y 0) (y 1) (i 0) hi0

/-! ## The blocks the grid points read and write -/

/-- The block indices, decided over the ten points: point `t` reads row block `t` of `x`, the one block of `w`, and
    writes row block `t` of the output. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array `x` as the region finds it, -/
abbrev xarr (c : Dev nD) : S50000x256.Idx → EReal := V c main_arg0
/-- the array `w`, -/
abbrev warr (c : Dev nD) : S256x256.Idx → EReal := V c main_arg2
/-- and their product, entry by entry. -/
abbrev prodArr (c : Dev nD) : S50000x256.Idx → EReal := fun i => matProd (xarr V c) (warr V c) (i 0) (i 1)

/-- Point `t`'s block of `x` is rows `5000 t … 5000 t + 4999`. -/
theorem xblk_apply (c : Dev nD) (t : Fin cfg0.N) (p : Fin 5000) (k : Fin 256) (r : Fin 50000)
    (hr : r.val = t.val * 5000 + p.val) :
    (iblk0 V c 0 t : Vec Ideal S5000x256 .f32) (ix2 p k) = xarr V c (ix2 r k) := by
  obtain ⟨e0, e1, -, -, -, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- Every point's block of `w` is the whole of it. -/
theorem wblk_apply (c : Dev nD) (t : Fin cfg0.N) (k q : Fin 256) :
    (iblk0 V c 1 t : Vec Ideal S256x256 .f32) (ix2 k q) = warr V c (ix2 k q) := by
  obtain ⟨-, -, e2, e3, -, -⟩ := index_facts t
  unfold iblk0
  rw [View.read_apply]
  show V c main_arg2 _ = V c main_arg2 _
  congr 1
  funext a
  apply Fin.ext
  match a with
  | ⟨0, _⟩ => show win0_1.index t (0 : Fin 2) * 256 + 1 * k.val = k.val; rw [e2]; omega
  | ⟨1, _⟩ => show win0_1.index t (1 : Fin 2) * 256 + 1 * q.val = q.val; rw [e3]; omega

/-- What point `t` writes back is block `t` of the product array. -/
theorem flushed_eq (c : Dev nD) (t : Fin cfg0.N) :
    (dat0 (F := Ideal) V c).flushed 2 t = ((cfg0.win 2).blk t).view.read (Elt Ideal) (prodArr V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  obtain ⟨-, -, -, -, e4, e5⟩ := index_facts t
  funext y
  rw [View.read_apply]
  show (k0_pay1 (F := Ideal) (iblk0 V c 0 t) (iblk0 V c 1 t) : S5000x256.Idx → EReal) ((cfg0.win 2).xinj (grid0.coords t) y)
    = matProd (xarr V c) (warr V c) ((((cfg0.win 2).blk t).view.emb y) 0) ((((cfg0.win 2).blk t).view.emb y) 1)
  refine blockProduct_at (xarr V c) (warr V c) (iblk0 V c 0 t) (iblk0 V c 1 t) t.val (xblk_apply V c t) (wblk_apply V c t)
    ((cfg0.win 2).xinj (grid0.coords t) y) (((cfg0.win 2).blk t).view.emb y) ?_ ?_
  · show win0_2.index t (0 : Fin 2) * 5000 + 1 * (y 0).val = t.val * 5000 + (y 0).val
    rw [e4]; omega
  · show win0_2.index t (1 : Fin 2) * 256 + 1 * (y 1).val = (y 1).val
    rw [e5]; omega

/-- An entry of the output array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v31).slice (win0_2.rect t)).set ↔ _
  rw [View.set_slice_whole, Rect.mem_set_unit]
  exact Iff.rfl

/-- Row `r` lies in the block of point `r / 5000`: the ten blocks cover the array. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  have ht : (i 0).val / 5000 < cfg0.N := by rw [hN]; omega
  obtain ⟨-, -, -, -, e4, e5⟩ := index_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 256 ≤ (i 1).val
      ∧ (i 1).val < win0_2.index ⟨(i 0).val / 5000, ht⟩ (1 : Fin 2) * 256 + 256
    rw [e5]; omega

/-- So the output array ends holding the product array. -/
theorem final (c : Dev nD) : (dat0 (F := Ideal) V c).arrAt 2 cfg0.N = prodArr V c :=
  (dat0 (F := Ideal) V c).arrAt_eq_of_cover 2 (prodArr V c) (fun t _ => flushed_eq V c t) cover

end Matmul

/-- What region 0 leaves in its output array, at an entry: the matrix product of its two input arrays as the region
    found them. -/
theorem matmul_value (c : Dev nD) (r : Fin 50000) (j : Fin 256) :
    ((dat0 (F := Ideal) V c).arrAt 2 cfg0.N : S50000x256.Idx → EReal) (ix2 r j)
      = matProd (V c main_arg0) (V c main_arg2) r j := by
  rw [Matmul.final]

end Cert.KernelIdeal.Val

end
-- ==== Proof.Bridge.lean ====
/-
  The kernel's aggregate is the reference's.

  Both programs aggregate `Σ_{e : dst e = r} rows e · norm e` with the same destination ids and the same edge weights
  (computed from the edge array by the same operations). The rows differ in how they are fetched: the kernel gathers
  the rows of its blocked product `x · w` through the masked gather, the reference the rows of its one whole product
  through the plain gather. The two products are one array (entry `(r, j)` is `Σ_k x r k · w k j` on both sides), and
  with every source id in `[0, 50000)` the masked gather is the plain one.
-/
import proofs.«413745_j1589137900159_2_alg».proof.Proof.HostEntry0
import proofs.«413745_j1589137900159_2_alg».proof.Proof.HostEntry1
import proofs.«413745_j1589137900159_2_alg».proof.Proof.KernelValue
import proofs.«413745_j1589137900159_2_alg».proof.Proof.MatmulBlocks
import proofs.«413745_j1589137900159_2_alg».proof.Proof.TakeGather
import proofs.«413745_j1589137900159_2_alg».proof.Proof.RefRead
import proofs.«413745_j1589137900159_2_alg».proof.Proof.SpecMat
import Idealize.ShloMosaic.Lib.ValueIdx

set_option maxRecDepth 16384

noncomputable section

namespace Cert.KernelIdeal.Val

open Cert.KernelIdeal Cert.KernelIdeal.Gen Cert.GcnBn
open Idealize.ShloMosaic Idealize.ShloMosaic.TcCoe Idealize.ShloMosaic.ValueIdx Idealize.SL.Sem

section AnyFloats
variable {F : FTy → Type} [FloatOps F]

/-- The reference's source ids are row 0 of the edge array followed by the self loops. -/
theorem refSrc_eq (ei : IVec S2x800000 32) : Cert.ReferenceIdeal.ReadP.val_main_v3 (F := F) ei = srcIds ei := rfl

/-- The reference's aggregate is the plain row gather of its product, scaled by the edge weights and summed by
    destination: its own operations, one after the other. -/
theorem refAgg_eq (x : FVec F S50000x256 .f32) (ei : IVec S2x800000 32) (w : FVec F S256x256 .f32) :
    aggregate (gatherRows (Cert.ReferenceIdeal.ReadP.val_main_v31 (F := F) x w) (srcIds ei))
        (Cert.ReferenceIdeal.ReadP.val_main_v6 (F := F) ei) (Cert.ReferenceIdeal.ReadP.val_main_v30 (F := F) ei)
      = Cert.ReferenceIdeal.ReadP.val_main_v44 (F := F) x ei w := rfl

end AnyFloats

variable (m : (ℓ : Loc nD τ sig) → Buf (Elt Ideal) ℓ) (ρ : Dev nD → PrngReg)

/-- The array region 0 leaves is the reference's product of the node features and the weight matrix: entry `(p, q)`
    is `Σ_k x p k · w k q` on both sides. -/
theorem product_eq (c : Dev nD) :
    ((dat0 (F := Ideal) (V3 m ρ) c).arrAt 2 cfg0.N : S50000x256.Idx → EReal)
      = Cert.ReferenceIdeal.ReadP.val_main_v31 (F := Ideal) (m ((c : Thread nD τ).loc main_arg0)) (m ((c : Thread nD τ).loc main_arg2)) := by
  funext i
  obtain ⟨p, q, rfl⟩ : ∃ (p : Fin 50000) (q : Fin 256), i = ix2 p q := ⟨i 0, i 1, eq_ix2 i⟩
  rw [matmul_value (V3 m ρ) c p q, Cert.ReferenceIdeal.ReadP.val_main_v31_apply]
  show matProd (W3 m ρ c (Proc.devRef .tc main_arg0)) (W3 m ρ c (Proc.devRef .tc main_arg2)) p q = _
  rw [x_at_W3, w_at_W3]
  unfold matProd
  refine Finset.sum_congr rfl fun k _ => ?_
  have hl : Cert.ReferenceIdeal.ReadP.lidx_main_v31 (ix2 p q) k = ix2 p k :=
    funext fun a => Fin.ext (by match a with | ⟨0, _⟩ => rfl | ⟨1, _⟩ => rfl)
  have hr : Cert.ReferenceIdeal.ReadP.ridx_main_v31 (ix2 p q) k = ix2 k q :=
    funext fun a => Fin.ext (by match a with | ⟨0, _⟩ => rfl | ⟨1, _⟩ => rfl)
  rw [hl, hr]

/-- With the source ids of the edge array in range, the kernel's aggregate is the reference's. -/
theorem aggK_eq_ref (c : Dev nD)
    (hsrc : ∀ e : Fin 800000, 0 ≤ ((m ((c : Thread nD τ).loc main_arg1) : IVec S2x800000 32) (ix2 (0 : Fin 2) e)).toInt
      ∧ ((m ((c : Thread nD τ).loc main_arg1) : IVec S2x800000 32) (ix2 (0 : Fin 2) e)).toInt < 50000) :
    aggK m ρ c = Cert.ReferenceIdeal.ReadP.val_main_v44 (F := Ideal) (m ((c : Thread nD τ).loc main_arg0))
      (m ((c : Thread nD τ).loc main_arg1)) (m ((c : Thread nD τ).loc main_arg2)) := by
  unfold aggK
  have hids : ∀ p : Fin 850000,
      0 ≤ (srcIds (m ((c : Thread nD τ).loc main_arg1)) (ix1 p)).toInt
        ∧ (srcIds (m ((c : Thread nD τ).loc main_arg1)) (ix1 p)).toInt < 50000 :=
    fun p => srcIds_in_range _ hsrc p
  rw [agg_at_W6, h_at_W4, src_at_W4, dst_at_W4, norm_at_W4, src_at_W3, dst_at_W3, norm_at_W3, refSrc_eq]
  rw [show (dat0 (F := Ideal) (V3 m ρ) c).arrAt 2 cfg0.N = _ from product_eq m ρ c]
  rw [takeRows_eq_gatherRows _ _ hids]
  exact refAgg_eq _ _ _

end Cert.KernelIdeal.Val

end
-- ==== Proof.Reference.lean ====
/-
  The reference program's result, entry by entry, over its aggregate.

  The reference computes `A = Σ_{e : dst e = r} h[src e] · norm e` by a gather and a scatter-add (kept here as ONE
  array, never opened), then `v = A + b`, the channel mean `μ = (Σ_r v) / N`, the centred variance
  `(Σ_r (v − μ)²) / N`, and `max (((v − μ) · rsqrt (var + ε)) · γ + β) 0`: the function `refOut` of the aggregate.
-/
import proofs.«413745_j1589137900159_2_alg».proof.Proof.RefRead
import proofs.«413745_j1589137900159_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Cert.GcnBn
open Idealize.ShloMosaic Idealize.ShloMosaic.TcCoe Idealize.ShloMosaic.ValueIdx Idealize.SL.Sem

section Stages

variable (x : (⟨S50000x256, .f32⟩ : BufTy).Contents (Elt Ideal)) (ei : (⟨S2x800000, .i32⟩ : BufTy).Contents (Elt Ideal))
  (w : (⟨S256x256, .f32⟩ : BufTy).Contents (Elt Ideal)) (b g β : (⟨S256, .f32⟩ : BufTy).Contents (Elt Ideal))

/-! ## Where the broadcasts and the sums read -/

/-- A per-channel row broadcast over the nodes reads channel `j` at node `k`, channel `j` (the bias). -/
theorem idx_bias (k : Fin 50000) (j : Fin 256) : idx_main_v45 (idx_main_v46 (ix2 k j)) = ix1 j :=
  funext fun a => Fin.ext (by match a with | ⟨0, _⟩ => rfl)
/-- The same for the mean broadcast into the squares. -/
theorem idx_mean_sq (k : Fin 50000) (j : Fin 256) : idx_main_v51 (idx_main_v52 (ix2 k j)) = ix1 j :=
  funext fun a => Fin.ext (by match a with | ⟨0, _⟩ => rfl)
/-- The same for the mean broadcast into the result. -/
theorem idx_mean_out (k : Fin 50000) (j : Fin 256) : idx_main_v58 (idx_main_v59 (ix2 k j)) = ix1 j :=
  funext fun a => Fin.ext (by match a with | ⟨0, _⟩ => rfl)
/-- The same for the reciprocal root. -/
theorem idx_rsqrt (k : Fin 50000) (j : Fin 256) : idx_main_v64 (idx_main_v65 (ix2 k j)) = ix1 j :=
  funext fun a => Fin.ext (by match a with | ⟨0, _⟩ => rfl)
/-- The same for the scale. -/
theorem idx_scale (k : Fin 50000) (j : Fin 256) : idx_main_v67 (idx_main_v68 (ix2 k j)) = ix1 j :=
  funext fun a => Fin.ext (by match a with | ⟨0, _⟩ => rfl)
/-- The same for the shift. -/
theorem idx_shift (k : Fin 50000) (j : Fin 256) : idx_main_v70 (idx_main_v71 (ix2 k j)) = ix1 j :=
  funext fun a => Fin.ext (by match a with | ⟨0, _⟩ => rfl)
/-- The sum over the nodes for channel `j` reads node `k`, channel `j`. -/
theorem idx_sum (k : Fin 50000) (j : Fin 256) : idx_main_v48 (ix1 j) k = ix2 k j :=
  funext fun a => Fin.ext (by match a with | ⟨0, _⟩ => rfl | ⟨1, _⟩ => rfl)
/-- The sum of squares over the nodes reads the same entries. -/
theorem idx_sumsq (k : Fin 50000) (j : Fin 256) : idx_main_v55 (ix1 j) k = ix2 k j :=
  funext fun a => Fin.ext (by match a with | ⟨0, _⟩ => rfl | ⟨1, _⟩ => rfl)

/-! ## The stages, bottom up -/

/-- `v = A + b` at node `k`, channel `j`. -/
theorem biased_at (k : Fin 50000) (j : Fin 256) :
    val_main_v47 (F := Ideal) x ei w b (ix2 k j) = biased (val_main_v44 (F := Ideal) x ei w) b k j := by
  rw [val_main_v47_apply, val_main_v46_apply, val_main_v45_apply, idx_bias]
  rfl

/-- The channel mean `(Σ_k v k j) / N`. -/
theorem mean_at (j : Fin 256) :
    val_main_v50 (F := Ideal) x ei w b (ix1 j) = mean (val_main_v44 (F := Ideal) x ei w) b j := by
  rw [val_main_v50_apply, val_main_v48_apply, val_main_v49_apply, val_main_cst_10_apply, val_main_cst_9_apply]
  unfold mean colSum nNodes
  simp only [Ideal.hostDivf_def, Ideal.ofBits_def, Ideal.ofBits_zero_f32, zero_add]
  have h : ∀ k : Fin 50000, val_main_v47 (F := Ideal) x ei w b (idx_main_v48 (ix1 j) k)
      = biased (val_main_v44 (F := Ideal) x ei w) b k j := by
    intro k
    rw [idx_sum]
    exact biased_at x ei w b k j
  simp only [h]

/-- The centred entry `v − μ` that is squared. -/
theorem centred_sq_at (k : Fin 50000) (j : Fin 256) :
    val_main_v53 (F := Ideal) x ei w b (ix2 k j)
      = biased (val_main_v44 (F := Ideal) x ei w) b k j - mean (val_main_v44 (F := Ideal) x ei w) b j := by
  rw [val_main_v53_apply, val_main_v52_apply, val_main_v51_apply, idx_mean_sq, biased_at, mean_at]
  rfl

/-- The centred variance `(Σ_k (v k j − μ j)²) / N`. -/
theorem var_at (j : Fin 256) :
    val_main_v57 (F := Ideal) x ei w b (ix1 j) = varCentered (val_main_v44 (F := Ideal) x ei w) b j := by
  rw [val_main_v57_apply, val_main_v55_apply, val_main_v56_apply, val_main_cst_12_apply, val_main_cst_11_apply]
  unfold varCentered nNodes
  simp only [Ideal.hostDivf_def, Ideal.ofBits_def, Ideal.ofBits_zero_f32, zero_add]
  have h : ∀ k : Fin 50000, val_main_v54 (F := Ideal) x ei w b (idx_main_v55 (ix1 j) k)
      = (biased (val_main_v44 (F := Ideal) x ei w) b k j - mean (val_main_v44 (F := Ideal) x ei w) b j)
        * (biased (val_main_v44 (F := Ideal) x ei w) b k j - mean (val_main_v44 (F := Ideal) x ei w) b j) := by
    intro k
    rw [idx_sumsq, val_main_v54_apply, centred_sq_at]
    rfl
  simp only [h]

/-- The centred entry `v − μ` that is normalised. -/
theorem centred_out_at (k : Fin 50000) (j : Fin 256) :
    val_main_v60 (F := Ideal) x ei w b (ix2 k j)
      = biased (val_main_v44 (F := Ideal) x ei w) b k j - mean (val_main_v44 (F := Ideal) x ei w) b j := by
  rw [val_main_v60_apply, val_main_v59_apply, val_main_v58_apply, idx_mean_out, biased_at, mean_at]
  rfl

/-- The reciprocal root `rsqrt (var + ε)`. -/
theorem rsqrt_at (j : Fin 256) :
    val_main_v63 (F := Ideal) x ei w b (ix1 j)
      = Ideal.rsqrt (varCentered (val_main_v44 (F := Ideal) x ei w) b j + eps) := by
  rw [val_main_v63_apply, val_main_v62_apply, val_main_v61_apply, val_main_cst_13_apply, var_at]
  rfl

end Stages

/-- The reference's result at node `r`, channel `j` is `refOut` of its aggregate (the scatter-add's result, as one
    array), the bias, the scale and the shift. -/
theorem ref_value (x : (⟨S50000x256, .f32⟩ : BufTy).Contents (Elt Ideal)) (ei : (⟨S2x800000, .i32⟩ : BufTy).Contents (Elt Ideal))
    (w : (⟨S256x256, .f32⟩ : BufTy).Contents (Elt Ideal)) (b g β : (⟨S256, .f32⟩ : BufTy).Contents (Elt Ideal))
    (r : Fin 50000) (j : Fin 256) :
    val_main_v73 (F := Ideal) x ei w b g β (ix2 r j) = refOut (val_main_v44 (F := Ideal) x ei w) b g β r j := by
  rw [val_main_v73_apply, val_main_v72_apply, val_main_v69_apply, val_main_v66_apply,
    val_main_v65_apply, val_main_v64_apply, idx_rsqrt, rsqrt_at, centred_out_at,
    val_main_v68_apply, val_main_v67_apply, idx_scale,
    val_main_v71_apply, val_main_v70_apply, idx_shift,
    val_main_call1_v0_apply, val_main_call1_cst_apply]
  simp only [Ideal.maximumf_def, Ideal.addf_def, Ideal.mulf_def, Ideal.ofBits_def, Ideal.ofBits_zero_f32]
  rfl

end Cert.ReferenceIdeal.RefValue

end
-- ==== Proof.Finite.lean ====
/-
  The aggregate is real-valued when the node features and the weight matrix are.

  `h = x · w` is a finite sum of products of reals. The degree of a node is a count (a finite sum of ones), a
  real number; its inverse square root is taken only where the degree is positive and is a real number there, and
  zero is used elsewhere, so every node's `dinv` is real, and so is every edge weight `norm e = dinv[src e] ·
  dinv[dst e]` (a gather returns an entry of its operand whatever the index). A message row is a gathered row of
  `h` times a weight, and the aggregate is a finite sum of message entries: real. No fact about the ids is used:
  the gathers clamp and the scatter-adds drop what falls outside.
-/
import proofs.«413745_j1589137900159_2_alg».proof.Proof.RefRead
import proofs.«413745_j1589137900159_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Cert.GcnBn
open Idealize.ShloMosaic Idealize.ShloMosaic.TcCoe Idealize.ShloMosaic.ValueIdx Idealize.SL.Sem

/-! ### The real numbers inside the extended reals are closed under the operations used -/

theorem isReal_zero : IsReal (0 : EReal) := ⟨0, EReal.coe_zero.symm⟩

theorem isReal_one : IsReal (1 : EReal) := ⟨1, EReal.coe_one.symm⟩

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- A finite sum of real numbers is a real number. -/
theorem isReal_sum {ι : Type} (s : Finset ι) (f : ι → EReal) (h : ∀ k ∈ s, IsReal (f k)) :
    IsReal (∑ k ∈ s, f k) := by
  classical
  induction s using Finset.induction_on with
  | empty => rw [Finset.sum_empty]; exact isReal_zero
  | insert a t ha ih =>
    rw [Finset.sum_insert ha]
    exact isReal_add (h a (Finset.mem_insert_self a t)) (ih fun k hk => h k (Finset.mem_insert_of_mem hk))

/-- The word `0x00000000` is the number zero. -/
theorem isReal_zeroWord : IsReal (Ideal.ofBits .f32 0x00000000#32) := by
  rw [Ideal.ofBits_zero_f32]; exact isReal_zero

/-- The word `0x3F800000` (sign 0, exponent 127, fraction 0) is the number one. -/
theorem oneWord_eq : Ideal.ofBits .f32 0x3F800000#32 = 1 := by
  simp [Ideal.ofBits, Ideal.ieee, -EReal.coe_mul]
  norm_num

theorem isReal_oneWord : IsReal (Ideal.ofBits .f32 0x3F800000#32) := by
  rw [oneWord_eq]; exact isReal_one

/-- An accumulating scatter of real updates into a real array is real: each entry is the operand's entry plus a
    finite sum of updates. -/
theorem isReal_scatterAdd {s si su : Shape} {w : Nat} (d : ScatterDims s si su) (x : FVec Ideal s .f32)
    (idx : IVec si w) (upd : FVec Ideal su .f32) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact isReal_add (hx i) (isReal_sum _ _ fun j _ => hu j)

/-- A gather of a real array is real: each entry is an entry of the operand. -/
theorem isReal_gather {s si t : Shape} {w : Nat} (d : GatherDims s si t) (x : s.Idx → EReal) (idx : IVec si w)
    (hx : ∀ i, IsReal (x i)) (j : t.Idx) : IsReal (Host.gather d x idx j) := by
  unfold Host.gather
  exact hx _

/-- The inverse square root where the argument is positive, zero elsewhere: real at every real argument. -/
theorem isReal_select_rsqrt (r : ℝ) :
    IsReal (Scalar.select (Ideal.cmp .ogt (r : EReal) 0) (Ideal.rsqrt (r : EReal)) (0 : EReal)) := by
  unfold Scalar.select Ideal.cmp
  by_cases h : (0 : EReal) < (r : EReal)
  · have hr : (0 : ℝ) < r := by exact_mod_cast h
    simp only [h, decide_true, BitVec.ofBool_true, if_true]
    rw [Ideal.rsqrt_coe, if_neg (not_lt.mpr hr.le), if_neg hr.ne']
    exact ⟨_, rfl⟩
  · simp only [h, decide_false, BitVec.ofBool_false]
    rw [if_neg (by decide)]
    exact isReal_zero

/-! ### The stages, bottom-up -/

/-- The degree: zero plus a finite sum of ones. -/
theorem v10_real (ei : (⟨S2x800000, .i32⟩ : BufTy).Contents (Elt Ideal)) (i : S50000.Idx) :
    IsReal (val_main_v10 (F := Ideal) ei i) := by
  unfold val_main_v10
  refine isReal_scatterAdd _ _ _ _ (fun k => ?_) (fun k => ?_) i
  · rw [val_main_v8_apply, val_main_cst_0_apply]; exact isReal_zeroWord
  · rw [val_main_v7_apply, val_main_cst_apply]; exact isReal_oneWord

/-- `dinv`: the inverse square root of the degree where it is positive, zero elsewhere. -/
theorem v15_real (ei : (⟨S2x800000, .i32⟩ : BufTy).Contents (Elt Ideal)) (i : S50000.Idx) :
    IsReal (val_main_v15 (F := Ideal) ei i) := by
  obtain ⟨r, hr⟩ := v10_real ei i
  rw [val_main_v15_apply, val_main_v12_apply, val_main_v13_apply, val_main_v14_apply, val_main_cst_2_apply,
    val_main_v11_apply, val_main_cst_1_apply, hr]
  show IsReal (Scalar.select (Ideal.cmp .ogt (r : EReal) (Ideal.ofBits .f32 0x00000000#32)) (Ideal.rsqrt (r : EReal))
    (Ideal.ofBits .f32 0x00000000#32))
  rw [Ideal.ofBits_zero_f32]
  exact isReal_select_rsqrt r

theorem v22_real (ei : (⟨S2x800000, .i32⟩ : BufTy).Contents (Elt Ideal)) (i : S850000.Idx) :
    IsReal (val_main_v22 (F := Ideal) ei i) := by
  unfold val_main_v22
  exact isReal_gather _ _ _ (v15_real ei) i

theorem v29_real (ei : (⟨S2x800000, .i32⟩ : BufTy).Contents (Elt Ideal)) (i : S850000.Idx) :
    IsReal (val_main_v29 (F := Ideal) ei i) := by
  unfold val_main_v29
  exact isReal_gather _ _ _ (v15_real ei) i

/-- The edge weight `dinv[src] · dinv[dst]`. -/
theorem v30_real (ei : (⟨S2x800000, .i32⟩ : BufTy).Contents (Elt Ideal)) (i : S850000.Idx) :
    IsReal (val_main_v30 (F := Ideal) ei i) := by
  rw [val_main_v30_apply]
  show IsReal (val_main_v22 (F := Ideal) ei i * val_main_v29 (F := Ideal) ei i)
  exact isReal_mul (v22_real ei i) (v29_real ei i)

/-- `h = x · w`: each entry a sum of 256 products. -/
theorem v31_real (x : (⟨S50000x256, .f32⟩ : BufTy).Contents (Elt Ideal)) (w : (⟨S256x256, .f32⟩ : BufTy).Contents (Elt Ideal))
    (hx : ∀ i, IsReal (x i)) (hw : ∀ i, IsReal (w i)) (i : S50000x256.Idx) :
    IsReal (val_main_v31 (F := Ideal) x w i) := by
  rw [val_main_v31_apply]
  exact isReal_sum _ _ fun k _ => isReal_mul (hx _) (hw _)

theorem v38_real (x : (⟨S50000x256, .f32⟩ : BufTy).Contents (Elt Ideal)) (ei : (⟨S2x800000, .i32⟩ : BufTy).Contents (Elt Ideal))
    (w : (⟨S256x256, .f32⟩ : BufTy).Contents (Elt Ideal)) (hx : ∀ i, IsReal (x i)) (hw : ∀ i, IsReal (w i))
    (i : S850000x256.Idx) : IsReal (val_main_v38 (F := Ideal) x ei w i) := by
  unfold val_main_v38
  exact isReal_gather _ _ _ (v31_real x w hx hw) i

/-- The edge weight spread along the channels. -/
theorem v40_real (ei : (⟨S2x800000, .i32⟩ : BufTy).Contents (Elt Ideal)) (i : S850000x256.Idx) :
    IsReal (val_main_v40 (F := Ideal) ei i) := by
  rw [val_main_v40_apply, val_main_v39_apply]
  exact v30_real ei _

/-- A message entry: a gathered entry of `h` times the edge's weight. -/
theorem v41_real (x : (⟨S50000x256, .f32⟩ : BufTy).Contents (Elt Ideal)) (ei : (⟨S2x800000, .i32⟩ : BufTy).Contents (Elt Ideal))
    (w : (⟨S256x256, .f32⟩ : BufTy).Contents (Elt Ideal)) (hx : ∀ i, IsReal (x i)) (hw : ∀ i, IsReal (w i))
    (i : S850000x256.Idx) : IsReal (val_main_v41 (F := Ideal) x ei w i) := by
  rw [val_main_v41_apply]
  show IsReal (val_main_v38 (F := Ideal) x ei w i * val_main_v40 (F := Ideal) ei i)
  exact isReal_mul (v38_real x ei w hx hw i) (v40_real ei i)

/-- Every entry of the reference's aggregate is a real number when every entry of `x` and of `w` is. -/
theorem agg_real (x : (⟨S50000x256, .f32⟩ : BufTy).Contents (Elt Ideal)) (ei : (⟨S2x800000, .i32⟩ : BufTy).Contents (Elt Ideal))
    (w : (⟨S256x256, .f32⟩ : BufTy).Contents (Elt Ideal)) (hx : ∀ i, IsReal (x i)) (hw : ∀ i, IsReal (w i))
    (i : S50000x256.Idx) : IsReal (val_main_v44 (F := Ideal) x ei w i) := by
  unfold val_main_v44
  refine isReal_scatterAdd _ _ _ _ (fun k => ?_) (v41_real x ei w hx hw) i
  rw [val_main_v42_apply, val_main_cst_8_apply]; exact isReal_zeroWord

end Cert.ReferenceIdeal.RefValue

end
-- ==== Proof.PreDecode.lean ====
/-
  What the precondition says, entry by entry: every entry of the node features, of the weight matrix and of the bias
  is a real number (its absolute value is below `+∞`), and every source id — row 0 of the edge array — lies in
  `[0, 50000)`.
-/
import proofs.«413745_j1589137900159_2_alg».proof.Pre_finite_inputs
import proofs.«413745_j1589137900159_2_alg».proof.Proof.Spec
import Idealize.ShloMosaic.PureOps.Ideal
import Idealize.ShloMosaic.Lib.ValueIdx
import Idealize.ShloMosaic.Lib.ReduceAll
import Idealize.ShloMosaic.Lib.StableHlo.Predicate
import Idealize.ShloMosaic.Lib.Pipeline.Value

noncomputable section

namespace Cert.Pre_finite_inputs.Decode

open Cert.Pre_finite_inputs Cert.GcnBn
open Idealize.ShloMosaic Idealize.ShloMosaic.ValueIdx

variable [Cert.Pre_finite_inputs.Facts]
open Facts

/-- The rank-0 shape has one index. -/
instance subsingleton_scalar_idx : Subsingleton S_.Idx := ⟨fun a b => funext fun d => d.elim0⟩

/-- The f32 word `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max v (−v)` is below `+∞` is a real number: at `⊥` and at `⊤` that maximum
    is `⊤`. -/
theorem isReal_of_abs_lt_inf (v : Ideal .f32)
    (h : FloatOps.cmpf (F := Ideal) .olt (FloatOps.hostAbsf v) (FloatOps.ofBits (F := Ideal) .f32 0x7F800000#32) = 1#1) :
    IsReal v := by
  change BitVec.ofBool (decide (max (v : EReal) (-(v : EReal)) < Ideal.ofBits .f32 0x7F800000#32)) = 1#1 at h
  rw [ofBits_inf] at h
  have hlt : max (v : EReal) (-(v : EReal)) < ⊤ := by
    have := (StableHlo.Predicate.ofBool_eq_one_iff _).1 h
    exact of_decide_eq_true this
  induction v using EReal.rec with
  | bot => exact absurd hlt (by simp)
  | coe r => exact ⟨r, rfl⟩
  | top => exact absurd hlt (by simp)

/-- Row 0 of the edge array as the precondition reads it — the slice `[0:1, 0:800000]` reshaped to a vector — at
    position `e` is the edge array at `(0, e)`. -/
theorem row0_apply (ei : IVec S2x800000 32) (e : Fin 800000) :
    shapeCast S800000 (extractStridedSlice S1x800000 ![0, 0] ei slices_S2x800000_S1x800000_0_0)
        shapeCasts_S1x800000_S800000 (ix1 e) = ei (ix2 (0 : Fin 2) e) := by
  refine (shapeCast_apply _ shapeCasts_S1x800000_S800000 (ix1 e) (ix2 (0 : Fin 1) e) ?_).trans ?_
  · rw [Shape.rowMajor_val_two, Shape.rowMajor_val_one]
    show 0 * 800000 + e.val = e.val
    omega
  · exact extractStridedSlice_apply ![0, 0] ei slices_S2x800000_S1x800000_0_0 (ix2 (0 : Fin 1) e) (ix2 (0 : Fin 2) e)
      (fun a => match a with
        | ⟨0, _⟩ => by show (0 : Nat) = 0 + 0; omega
        | ⟨1, _⟩ => by show e.val = 0 + e.val; omega)

/-- The precondition, read off: real entries of `x`, `w` and `b`, and source ids in range. -/
theorem pre_decode (x : FVec Ideal S50000x256 .f32) (ei : IVec S2x800000 32) (w : FVec Ideal S256x256 .f32)
    (b g β : FVec Ideal S256 .f32)
    (h : Cert.Pre_finite_inputs.fn (F := Ideal) x ei w b g β = fun _ => 1#1) :
    (∀ i, IsReal (x i)) ∧ (∀ i, IsReal (w i)) ∧ (∀ i, IsReal (b i))
      ∧ ∀ e : Fin 800000, 0 ≤ (ei (ix2 (0 : Fin 2) e)).toInt ∧ (ei (ix2 (0 : Fin 2) e)).toInt < 50000 := by
  have h0 := congrFun h ix0
  dsimp only [fn, fn_part1] at h0
  -- the six conjuncts, outermost first: ids, β, γ, b, then x and w
  obtain ⟨h1, hE⟩ := IntOp.andi_eq_one.1 h0
  obtain ⟨h2, -⟩ := IntOp.andi_eq_one.1 h1
  obtain ⟨h3, -⟩ := IntOp.andi_eq_one.1 h2
  obtain ⟨h4, hB⟩ := IntOp.andi_eq_one.1 h3
  obtain ⟨hX, hW⟩ := IntOp.andi_eq_one.1 h4
  refine ⟨fun i => isReal_of_abs_lt_inf _ (Host.reduce_andi_all _ _ _ _ _ hX i),
    fun i => isReal_of_abs_lt_inf _ (Host.reduce_andi_all _ _ _ _ _ hW i),
    fun i => isReal_of_abs_lt_inf _ (Host.reduce_andi_all _ _ _ _ _ hB i), fun e => ?_⟩
  obtain ⟨hge, hlt⟩ := IntOp.andi_eq_one.1 (Host.reduce_andi_all _ _ _ _ _ hE (ix1 e))
  have hge' : (0#32 : BitVec 32).toInt ≤ (shapeCast S800000 (extractStridedSlice S1x800000 ![0, 0] ei
      slices_S2x800000_S1x800000_0_0) shapeCasts_S1x800000_S800000 (ix1 e)).toInt := IntOp.cmpi_sge.1 hge
  have hlt' : (shapeCast S800000 (extractStridedSlice S1x800000 ![0, 0] ei
      slices_S2x800000_S1x800000_0_0) shapeCasts_S1x800000_S800000 (ix1 e)).toInt < (50000#32 : BitVec 32).toInt :=
    IntOp.cmpi_slt.1 hlt
  rw [row0_apply] at hge' hlt'
  have z0 : (0#32 : BitVec 32).toInt = 0 := by decide
  have z5 : (50000#32 : BitVec 32).toInt = 50000 := by decide
  rw [z0] at hge'
  rw [z5] at hlt'
  exact ⟨hge', hlt'⟩

end Cert.Pre_finite_inputs.Decode

end
-- ==== Proof.lean ====
/-
  A graph-convolution block — `h = x · w`; messages `h[src e] · norm e` summed into the aggregate `A` by destination;
  `v = A + b`; batch normalisation over the 50000 nodes; ReLU — as a kernel of three tiled regions with the gather and
  the scatter-add between them on the host, against the plain array program.

  At the extended reals the two programs compute one function, for finite inputs whose source ids lie in
  `[0, 50000)`:
  * the linear transform is the same sum `Σ_k x r k · w k j`, block by block or whole (Proof/MatmulBlocks.lean,
    Proof/Bridge.lean);
  * the ids and the edge weights come from the edge array by the same operations (Proof/HostEntry0.lean), and the
    kernel's masked row gather is the plain one where every id is in range (Proof/TakeGather.lean): one aggregate
    (Proof/Bridge.lean);
  * the kernel's column sums over ten blocks are the sums over all nodes (Proof/ColumnSums.lean) and its
    normalisation is the reference's formula (Proof/Normalize.lean, Proof/KernelValue.lean, Proof/Reference.lean),
    except that the kernel takes the variance from the raw moments, `Σv²/N − (Σv/N)²`, and the reference from the
    centred squares, `Σ(v − Σv/N)²/N`: equal for real `v` (Proof/Spec.lean), and `v` is real because `x`, `w` and
    `b` are finite (Proof/Finite.lean, Proof/PreDecode.lean).
  The three frames are the generated ones (the reference's is its run with the result dropped); the idealization
  rewrote nothing, so `preserves` is `True`.
-/
import proofs.«413745_j1589137900159_2_alg».proof.Defs
import proofs.«413745_j1589137900159_2_alg».proof.Proof.Gen.Kernel
import proofs.«413745_j1589137900159_2_alg».proof.Proof.Gen.Kernel.Frame
import proofs.«413745_j1589137900159_2_alg».proof.Proof.Gen.KernelIdeal
import proofs.«413745_j1589137900159_2_alg».proof.Proof.Gen.KernelIdeal.Frame
import proofs.«413745_j1589137900159_2_alg».proof.Proof.Gen.ReferenceIdeal
import proofs.«413745_j1589137900159_2_alg».proof.Proof.Gen.Pre_finite_inputs
import proofs.«413745_j1589137900159_2_alg».proof.Proof.KernelRun
import proofs.«413745_j1589137900159_2_alg».proof.Proof.KernelValue
import proofs.«413745_j1589137900159_2_alg».proof.Proof.Bridge
import proofs.«413745_j1589137900159_2_alg».proof.Proof.RefRun
import proofs.«413745_j1589137900159_2_alg».proof.Proof.RefRead
import proofs.«413745_j1589137900159_2_alg».proof.Proof.Reference
import proofs.«413745_j1589137900159_2_alg».proof.Proof.Finite
import proofs.«413745_j1589137900159_2_alg».proof.Proof.PreDecode
import proofs.«413745_j1589137900159_2_alg».proof.Proof.Spec
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.GcnBn

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with one result array: entry `(r, j)` of the
    kernel's is `kerOut` of its aggregate, of the reference's `refOut` of its own; the aggregates are one array
    (the source ids are in range), real-valued (the float inputs are finite), and on a real-valued aggregate the two
    variances, hence the two results, agree. -/
theorem algebraic : Cert.algebraic_KernelIdeal_ReferenceIdeal := by
  intro m ρ m' ρ' hpre hagree
  refine ⟨fun c => Cert.KernelIdeal.Gen.W9 m ρ c (Proc.devRef .tc Cert.KernelIdeal.main_v46),
    Cert.KernelIdeal.GenRun.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hw, hb, hsrc⟩ := Cert.Pre_finite_inputs.Decode.pre_decode _ _ _ _ _ _ (hpre c)
  rw [Cert.ReferenceIdeal.ReadP.val_main_v73_eq, (hagree c).1, (hagree c).2.1, (hagree c).2.2.1, (hagree c).2.2.2.1,
    (hagree c).2.2.2.2.1, (hagree c).2.2.2.2.2]
  funext i
  obtain ⟨r, j, rfl⟩ : ∃ (r : Fin 50000) (j : Fin 256), i = ix2 r j := ⟨i 0, i 1, eq_ix2 i⟩
  show _ = Cert.KernelIdeal.Gen.W9 m ρ c (Proc.devRef .tc Cert.KernelIdeal.main_v46) (ix2 r j)
  rw [Cert.ReferenceIdeal.RefValue.ref_value, Cert.KernelIdeal.Val.result_value m ρ c r j,
    Cert.KernelIdeal.Val.aggK_eq_ref m ρ c hsrc]
  have hA : ∀ i, IsReal (Cert.ReferenceIdeal.ReadP.val_main_v44 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) i) :=
    fun i => Cert.ReferenceIdeal.RefValue.agg_real
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) hx hw i
  exact (kerOut_eq_refOut
    (Cert.ReferenceIdeal.ReadP.val_main_v44 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) hA hb r j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
